-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x64 : Shape := ⟨2, ![262144, 64]⟩
abbrev S262144 : Shape := ⟨1, ![262144]⟩
abbrev S64x256 : Shape := ⟨2, ![64, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S256x64 : Shape := ⟨2, ![256, 64]⟩
abbrev S64 : Shape := ⟨1, ![64]⟩
abbrev S_ : Shape := ⟨0, ![]⟩

class Facts : Prop where
  bcast_S_S262144x64 : S_.BroadcastsInDim S262144x64 (![] : Fin 0 → Fin S262144x64.rank)
  reducesTo_S262144x64_S_d0_1 : S262144x64.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg13 : FVec F S256x64 .f32) (main_arg14 : FVec F S64 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x64 .f32 := Host.absf main_arg13
  let main_cst_20 : FVec F S_ .f32 := constant S_ .f32 0x7F800000#32
  let main_v55 : FVec F S256x64 .f32 := broadcastInDim S256x64 ![] bcast_S_S256x64 main_cst_20
  let main_v56 : IVec S256x64 1 := cmpf .olt main_v54 main_v55
  let main_c_21 : IVec S_ 1 := constantI S_ 1 1#1
  let main_v57 : IVec S_ 1 := (fun x v => Host.reduce IntOp.andi x v reducesTo_S256x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg9 : FVec F S256x256 .f32) (main_arg10 : FVec F S256 .f32) (main_arg11 : FVec F S256x256 .f32) (main_arg12 : FVec F S256 .f32) (main_arg13 : FVec F S256x64 .f32) (main_arg14 : FVec F S64 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg11
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_v48 main_v49 main_v50

def fn_part1 {F : FTy → Type} [FloatOps F] (main_arg6 : FVec F S256 .f32) (main_arg7 : FVec F S256x128 .f32) (main_arg8 : FVec F S128 .f32) (main_arg9 : FVec F S256x256 .f32) (main_arg10 : FVec F S256 .f32) (main_arg11 : FVec F S256x256 .f32) (main_arg12 : FVec F S256 .f32) (main_arg13 : FVec F S256x64 .f32) (main_arg14 : FVec F S64 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S262144x64 .f32) (main_arg1 : IVec S262144 32) (main_arg2 : IVec S262144 32) (main_arg3 : FVec F S64x256 .f32) (main_arg4 : FVec F S256 .f32) (main_arg5 : FVec F S256x256 .f32) (main_arg6 : FVec F S256 .f32) (main_arg7 : FVec F S256x128 .f32) (main_arg8 : FVec F S128 .f32) (main_arg9 : FVec F S256x256 .f32) (main_arg10 : FVec F S256 .f32) (main_arg11 : FVec F S256x256 .f32) (main_arg12 : FVec F S256 .f32) (main_arg13 : FVec F S256x64 .f32) (main_arg14 : FVec F S64 .f32) : IVec S_ 1 :=
  let main_v0 : FVec F S262144x64 .f32 := Host.absf main_arg0
  let main_cst : FVec F S_ .f32 := constant S_ .f32 0x7F800000#32
  let main_v1 : FVec F S262144x64 .f32 := broadcastInDim S262144x64 ![] bcast_S_S262144x64 main_cst
  let main_v2 : IVec S262144x64 1 := cmpf .olt main_v0 main_v1
  let main_c : IVec S_ 1 := constantI S_ 1 1#1
  let main_v3 : IVec S_ 1 := (fun x v => Host.reduce IntOp.andi x v reducesTo_S262144x64_S_d0_1 h_S_) main_v2 main_c
  let main_v4 : FVec F S64x256 .f32 := Host.absf main_arg3
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_arg13 main_arg14 main_v13 main_v16
-- ==== Kernel.lean ====
abbrev S262144x64 : Shape := ⟨2, ![262144, 64]⟩
abbrev S262144 : Shape := ⟨1, ![262144]⟩
abbrev S64x256 : Shape := ⟨2, ![64, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S256x64 : Shape := ⟨2, ![256, 64]⟩
abbrev S64 : Shape := ⟨1, ![64]⟩
abbrev S262144x128 : Shape := ⟨2, ![262144, 128]⟩
abbrev S2048x64 : Shape := ⟨2, ![2048, 64]⟩
abbrev S2048x128 : Shape := ⟨2, ![2048, 128]⟩
abbrev S2048x256 : Shape := ⟨2, ![2048, 256]⟩
abbrev S1x256 : Shape := ⟨2, ![1, 256]⟩
abbrev S1x128 : Shape := ⟨2, ![1, 128]⟩
abbrev S_ : Shape := ⟨0, ![]⟩
abbrev S1024x128 : Shape := ⟨2, ![1024, 128]⟩
abbrev S262144x1 : Shape := ⟨2, ![262144, 1]⟩
abbrev S1024 : Shape := ⟨1, ![1024]⟩
abbrev S1024x1 : Shape := ⟨2, ![1024, 1]⟩
abbrev S262144x256 : Shape := ⟨2, ![262144, 256]⟩
abbrev S1x64 : Shape := ⟨2, ![1, 64]⟩

abbrev nBuf : Space → Nat
  | .hbm => 50
  | .vmem => 20
  | .smem => 0
  | _ => 0

abbrev bufTy : (tb : Table) → Fin (tcTables nBuf tb) → BufTy
  | .hbm, ⟨0, _⟩ => ⟨S262144x64, .f32⟩
  | .hbm, ⟨1, _⟩ => ⟨S262144, .i32⟩
  | .hbm, ⟨2, _⟩ => ⟨S262144, .i32⟩
  | .hbm, ⟨3, _⟩ => ⟨S64x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x64, .f32⟩
  | .hbm, ⟨14, _⟩ => ⟨S64, .f32⟩
  | .hbm, ⟨15, _⟩ => ⟨S262144x128, .f32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S262144, .i32⟩
  | .hbm, ⟨21, _⟩ => ⟨S262144, .i32⟩
  | .hbm, ⟨22, _⟩ => ⟨S262144, .i32⟩
  | .hbm, ⟨23, _⟩ => ⟨S_, .f32⟩
  | .hbm, ⟨24, _⟩ => ⟨S1024x128, .f32⟩
  | .hbm, ⟨25, _⟩ => ⟨S262144x1, .i32⟩
  | .hbm, ⟨26, _⟩ => ⟨S1024x128, .f32⟩
  | .hbm, ⟨27, _⟩ => ⟨S_, .f32⟩
  | .hbm, ⟨28, _⟩ => ⟨S262144, .f32⟩
  | .hbm, ⟨29, _⟩ => ⟨S_, .f32⟩
  | .hbm, ⟨30, _⟩ => ⟨S1024, .f32⟩
  | .hbm, ⟨31, _⟩ => ⟨S262144x1, .i32⟩
  | .hbm, ⟨32, _⟩ => ⟨S1024, .f32⟩
  | .hbm, ⟨33, _⟩ => ⟨S_, .f32⟩
  | .hbm, ⟨34, _⟩ => ⟨S1024, .f32⟩
  | .hbm, ⟨35, _⟩ => ⟨S1024, .f32⟩
  | .hbm, ⟨36, _⟩ => ⟨S1024x1, .f32⟩
  | .hbm, ⟨37, _⟩ => ⟨S1024x128, .f32⟩
  | .hbm, ⟨38, _⟩ => ⟨S1024x128, .f32⟩
  | .hbm, ⟨39, _⟩ => ⟨S_, .i32⟩
  | .hbm, ⟨40, _⟩ => ⟨S262144, .i32⟩
  | .hbm, ⟨41, _⟩ => ⟨S262144, .i1⟩
  | .hbm, ⟨42, _⟩ => ⟨S_, .i32⟩
  | .hbm, ⟨43, _⟩ => ⟨S262144, .i32⟩
  | .hbm, ⟨44, _⟩ => ⟨S262144, .i32⟩
  | .hbm, ⟨45, _⟩ => ⟨S262144, .i32⟩
  | .hbm, ⟨46, _⟩ => ⟨S262144x1, .i32⟩
  | .hbm, ⟨47, _⟩ => ⟨S262144x128, .f32⟩
  | .hbm, ⟨48, _⟩ => ⟨S262144x256, .f32⟩
  | .hbm, ⟨49, _⟩ => ⟨S262144x64, .f32⟩
  | .local _ .vmem, ⟨0, _⟩ => ⟨S2048x64, .f32⟩
  | .local _ .vmem, ⟨1, _⟩ => ⟨S2048x64, .f32⟩
  | .local _ .vmem, ⟨2, _⟩ => ⟨S64x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S256x128, .f32⟩
  | .local _ .vmem, ⟨7, _⟩ => ⟨S128, .f32⟩
  | .local _ .vmem, ⟨8, _⟩ => ⟨S2048x128, .f32⟩
  | .local _ .vmem, ⟨9, _⟩ => ⟨S2048x128, .f32⟩
  | .local _ .vmem, ⟨10, _⟩ => ⟨S2048x256, .f32⟩
  | .local _ .vmem, ⟨11, _⟩ => ⟨S2048x256, .f32⟩
  | .local _ .vmem, ⟨12, _⟩ => ⟨S256x256, .f32⟩
  | .local _ .vmem, ⟨13, _⟩ => ⟨S256, .f32⟩
  | .local _ .vmem, ⟨14, _⟩ => ⟨S256x256, .f32⟩
  | .local _ .vmem, ⟨15, _⟩ => ⟨S256, .f32⟩
  | .local _ .vmem, ⟨16, _⟩ => ⟨S256x64, .f32⟩
  | .local _ .vmem, ⟨17, _⟩ => ⟨S64, .f32⟩
  | .local _ .vmem, ⟨18, _⟩ => ⟨S2048x64, .f32⟩
  | .local _ .vmem, ⟨19, _⟩ => ⟨S2048x64, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_3 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_4 : Ref sig .tc := ⟨.hbm, 39, rfl⟩
abbrev main_v18 : Ref sig .tc := ⟨.hbm, 40, rfl⟩
abbrev main_v19 : Ref sig .tc := ⟨.hbm, 41, rfl⟩
abbrev main_c_5 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2048x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  inb_S2048x64_S2048x64_0_0 : ∀ a, (![0, 0] : Fin 2 → Nat) a + S2048x64.size a ≤ S2048x64.size a
  h_S2048x64 : 0 < S2048x64.numel
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  reducesTo_S262144_S_d0 : S262144.ReducesTo [0] S_
  h_S_ : 0 < S_.numel
  bcast_S_S262144 : S_.BroadcastsInDim S262144 (![] : Fin 0 → Fin S262144.rank)
  bcast_S_S1024x128 : S_.BroadcastsInDim S1024x128 (![] : Fin 0 → Fin S1024x128.rank)
  bcast_S262144_S262144x1_0 : S262144.BroadcastsInDim S262144x1 (![0] : Fin 1 → Fin S262144x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  concatenates_S262144x128_S262144x128_S262144x256_d1 : Shape.Concatenates [S262144x128, S262144x128] S262144x256 1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x64_S256x64_0_0 : ∀ a, (![0, 0] : Fin 2 → Nat) a + S256x64.size a ≤ S256x64.size a
  h_S256x64 : 0 < S256x64.numel
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  dot_S2048x64_S64x256_S2048x256_1_0_0_1_n_n_wf : DotDims.WF S2048x64 S64x256 S2048x256 [1] [0] [0] [1] [] []
  dot_S2048x256_S256x256_S2048x256_1_0_0_1_n_n_wf : DotDims.WF S2048x256 S256x256 S2048x256 [1] [0] [0] [1] [] []
  dot_S2048x256_S256x128_S2048x128_1_0_0_1_n_n_wf : DotDims.WF S2048x256 S256x128 S2048x128 [1] [0] [0] [1] [] []
  scatter_S1024x128_S262144x1_S262144x128_1_0_0_1_wf : ScatterDims.WF S1024x128 S262144x1 S262144x128 [1] [0] [0] 1
  scatter_S1024_S262144x1_S262144_n_0_0_1_wf : ScatterDims.WF S1024 S262144x1 S262144 [] [0] [0] 1
  gather_S1024x128_S262144x1_S262144x128_1_0_n_n_0_1_1128_wf : GatherDims.WF S1024x128 S262144x1 S262144x128 [1] [0] [] [0] [] 1 ![1, 128]
  dot_S2048x256_S256x64_S2048x64_1_0_0_1_n_n_wf : DotDims.WF S2048x256 S256x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S262144x64.size a
  hwx0_0 : ∀ i : grid0.Coords, EltTy.bits .f32 = 32 ∨ (Rect.block (s := S262144x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S262144x128.size a
  hwx0_7 : ∀ i : grid0.Coords, EltTy.bits .f32 = 32 ∨ (Rect.block (s := S262144x128) S2048x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S262144x256.size a
  hwx1_0 : ∀ i : grid1.Coords, EltTy.bits .f32 = 32 ∨ (Rect.block (s := S262144x256) S2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x64.size a ≤ S256x64.size a
  hwx1_5 : ∀ i : grid1.Coords, EltTy.bits .f32 = 32 ∨ (Rect.block (s := S256x64) S256x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2048x64.size a ≤ S262144x64.size a
  hwx1_7 : ∀ i : grid1.Coords, EltTy.bits .f32 = 32 ∨ (Rect.block (s := S262144x64) S2048x64.size (cc1_transform_7 i) (hinb1_7 i)).WholeWords (EltTy.packing .f32)

variable [Facts₀]

def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def scatter_S1024x128_S262144x1_S262144x128_1_0_0_1 : ScatterDims S1024x128 S262144x1 S262144x128 where
  updateWindowDims := [1]
  insertedWindowDims := [0]
  scatterDimsToOperandDims := [0]
  indexVectorDim := 1
  wf := scatter_S1024x128_S262144x1_S262144x128_1_0_0_1_wf
def scatter_S1024_S262144x1_S262144_n_0_0_1 : ScatterDims S1024 S262144x1 S262144 where
  updateWindowDims := []
  insertedWindowDims := [0]
  scatterDimsToOperandDims := [0]
  indexVectorDim := 1
  wf := scatter_S1024_S262144x1_S262144_n_0_0_1_wf
def gather_S1024x128_S262144x1_S262144x128_1_0_n_n_0_1_1128 : GatherDims S1024x128 S262144x1 S262144x128 where
  offsetDims := [1]
  collapsedSliceDims := [0]
  operandBatchingDims := []
  startIndicesBatchingDims := []
  startIndexMap := [0]
  indexVectorDim := 1
  sliceSizes := ![1, 128]
  wf := gather_S1024x128_S262144x1_S262144x128_1_0_n_n_0_1_1128_wf
def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S2048x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v25) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S256x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg14) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v26) S2048x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S262144x64 : Shape := ⟨2, ![262144, 64]⟩
abbrev S262144 : Shape := ⟨1, ![262144]⟩
abbrev S64x256 : Shape := ⟨2, ![64, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S256x64 : Shape := ⟨2, ![256, 64]⟩
abbrev S64 : Shape := ⟨1, ![64]⟩
abbrev S262144x256 : Shape := ⟨2, ![262144, 256]⟩
abbrev S1x256 : Shape := ⟨2, ![1, 256]⟩
abbrev S_ : Shape := ⟨0, ![]⟩
abbrev S262144x128 : Shape := ⟨2, ![262144, 128]⟩
abbrev S1x128 : Shape := ⟨2, ![1, 128]⟩
abbrev S1024x128 : Shape := ⟨2, ![1024, 128]⟩
abbrev S262144x1 : Shape := ⟨2, ![262144, 1]⟩
abbrev S1024 : Shape := ⟨1, ![1024]⟩
abbrev S1024x1 : Shape := ⟨2, ![1024, 1]⟩
abbrev S1x64 : Shape := ⟨2, ![1, 64]⟩

abbrev nBuf : Space → Nat
  | .hbm => 104
  | .vmem => 0
  | .smem => 0
  | _ => 0

abbrev bufTy : (tb : Table) → Fin (tcTables nBuf tb) → BufTy
  | .hbm, ⟨0, _⟩ => ⟨S262144x64, .f32⟩
  | .hbm, ⟨1, _⟩ => ⟨S262144, .i32⟩
  | .hbm, ⟨2, _⟩ => ⟨S262144, .i32⟩
  | .hbm, ⟨3, _⟩ => ⟨S64x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x64, .f32⟩
  | .hbm, ⟨14, _⟩ => ⟨S64, .f32⟩
  | .hbm, ⟨15, _⟩ => ⟨S262144x256, .f32⟩
  | .hbm, ⟨16, _⟩ => ⟨S1x256, .f32⟩
  | .hbm, ⟨17, _⟩ => ⟨S262144x256, .f32⟩
  | .hbm, ⟨18, _⟩ => ⟨S262144x256, .f32⟩
  | .hbm, ⟨19, _⟩ => ⟨S_, .f32⟩
  | .hbm, ⟨20, _⟩ => ⟨S_, .f32⟩
  | .hbm, ⟨21, _⟩ => ⟨S262144x256, .f32⟩
  | .hbm, ⟨22, _⟩ => ⟨S262144x256, .i1⟩
  | .hbm, ⟨23, _⟩ => ⟨S_, .f32⟩
  | .hbm, ⟨24, _⟩ => ⟨S262144x256, .f32⟩
  | .hbm, ⟨25, _⟩ => ⟨S262144x256, .f32⟩
  | .hbm, ⟨26, _⟩ => ⟨S262144x256, .f32⟩
  | .hbm, ⟨27, _⟩ => ⟨S262144x256, .f32⟩
  | .hbm, ⟨28, _⟩ => ⟨S1x256, .f32⟩
  | .hbm, ⟨29, _⟩ => ⟨S262144x256, .f32⟩
  | .hbm, ⟨30, _⟩ => ⟨S262144x256, .f32⟩
  | .hbm, ⟨31, _⟩ => ⟨S_, .f32⟩
  | .hbm, ⟨32, _⟩ => ⟨S_, .f32⟩
  | .hbm, ⟨33, _⟩ => ⟨S262144x256, .f32⟩
  | .hbm, ⟨34, _⟩ => ⟨S262144x256, .i1⟩
  | .hbm, ⟨35, _⟩ => ⟨S_, .f32⟩
  | .hbm, ⟨36, _⟩ => ⟨S262144x256, .f32⟩
  | .hbm, ⟨37, _⟩ => ⟨S262144x256, .f32⟩
  | .hbm, ⟨38, _⟩ => ⟨S262144x256, .f32⟩
  | .hbm, ⟨39, _⟩ => ⟨S262144x128, .f32⟩
  | .hbm, ⟨40, _⟩ => ⟨S1x128, .f32⟩
  | .hbm, ⟨41, _⟩ => ⟨S262144x128, .f32⟩
  | .hbm, ⟨42, _⟩ => ⟨S262144x128, .f32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S262144, .i32⟩
  | .hbm, ⟨48, _⟩ => ⟨S262144, .i32⟩
  | .hbm, ⟨49, _⟩ => ⟨S262144, .i32⟩
  | .hbm, ⟨50, _⟩ => ⟨S_, .f32⟩
  | .hbm, ⟨51, _⟩ => ⟨S1024x128, .f32⟩
  | .hbm, ⟨52, _⟩ => ⟨S262144x1, .i32⟩
  | .hbm, ⟨53, _⟩ => ⟨S1024x128, .f32⟩
  | .hbm, ⟨54, _⟩ => ⟨S_, .f32⟩
  | .hbm, ⟨55, _⟩ => ⟨S262144, .f32⟩
  | .hbm, ⟨56, _⟩ => ⟨S_, .f32⟩
  | .hbm, ⟨57, _⟩ => ⟨S1024, .f32⟩
  | .hbm, ⟨58, _⟩ => ⟨S262144x1, .i32⟩
  | .hbm, ⟨59, _⟩ => ⟨S1024, .f32⟩
  | .hbm, ⟨60, _⟩ => ⟨S_, .f32⟩
  | .hbm, ⟨61, _⟩ => ⟨S1024, .f32⟩
  | .hbm, ⟨62, _⟩ => ⟨S1024, .f32⟩
  | .hbm, ⟨63, _⟩ => ⟨S1024x1, .f32⟩
  | .hbm, ⟨64, _⟩ => ⟨S1024x128, .f32⟩
  | .hbm, ⟨65, _⟩ => ⟨S1024x128, .f32⟩
  | .hbm, ⟨66, _⟩ => ⟨S_, .i32⟩
  | .hbm, ⟨67, _⟩ => ⟨S262144, .i32⟩
  | .hbm, ⟨68, _⟩ => ⟨S262144, .i1⟩
  | .hbm, ⟨69, _⟩ => ⟨S_, .i32⟩
  | .hbm, ⟨70, _⟩ => ⟨S262144, .i32⟩
  | .hbm, ⟨71, _⟩ => ⟨S262144, .i32⟩
  | .hbm, ⟨72, _⟩ => ⟨S262144, .i32⟩
  | .hbm, ⟨73, _⟩ => ⟨S262144x1, .i32⟩
  | .hbm, ⟨74, _⟩ => ⟨S262144x128, .f32⟩
  | .hbm, ⟨75, _⟩ => ⟨S262144x256, .f32⟩
  | .hbm, ⟨76, _⟩ => ⟨S262144x256, .f32⟩
  | .hbm, ⟨77, _⟩ => ⟨S1x256, .f32⟩
  | .hbm, ⟨78, _⟩ => ⟨S262144x256, .f32⟩
  | .hbm, ⟨79, _⟩ => ⟨S262144x256, .f32⟩
  | .hbm, ⟨80, _⟩ => ⟨S_, .f32⟩
  | .hbm, ⟨81, _⟩ => ⟨S_, .f32⟩
  | .hbm, ⟨82, _⟩ => ⟨S262144x256, .f32⟩
  | .hbm, ⟨83, _⟩ => ⟨S262144x256, .i1⟩
  | .hbm, ⟨84, _⟩ => ⟨S_, .f32⟩
  | .hbm, ⟨85, _⟩ => ⟨S262144x256, .f32⟩
  | .hbm, ⟨86, _⟩ => ⟨S262144x256, .f32⟩
  | .hbm, ⟨87, _⟩ => ⟨S262144x256, .f32⟩
  | .hbm, ⟨88, _⟩ => ⟨S262144x256, .f32⟩
  | .hbm, ⟨89, _⟩ => ⟨S1x256, .f32⟩
  | .hbm, ⟨90, _⟩ => ⟨S262144x256, .f32⟩
  | .hbm, ⟨91, _⟩ => ⟨S262144x256, .f32⟩
  | .hbm, ⟨92, _⟩ => ⟨S_, .f32⟩
  | .hbm, ⟨93, _⟩ => ⟨S_, .f32⟩
  | .hbm, ⟨94, _⟩ => ⟨S262144x256, .f32⟩
  | .hbm, ⟨95, _⟩ => ⟨S262144x256, .i1⟩
  | .hbm, ⟨96, _⟩ => ⟨S_, .f32⟩
  | .hbm, ⟨97, _⟩ => ⟨S262144x256, .f32⟩
  | .hbm, ⟨98, _⟩ => ⟨S262144x256, .f32⟩
  | .hbm, ⟨99, _⟩ => ⟨S262144x256, .f32⟩
  | .hbm, ⟨100, _⟩ => ⟨S262144x64, .f32⟩
  | .hbm, ⟨101, _⟩ => ⟨S1x64, .f32⟩
  | .hbm, ⟨102, _⟩ => ⟨S262144x64, .f32⟩
  | .hbm, ⟨103, _⟩ => ⟨S262144x64, .f32⟩
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst_0 : Ref sig .tc := ⟨.hbm, 31, rfl⟩
abbrev main_call1_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_c : Ref sig .tc := ⟨.hbm, 43, rfl⟩
abbrev main_v14 : Ref sig .tc := ⟨.hbm, 44, rfl⟩
abbrev main_c_1 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_2 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_cst_4 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_cst_5 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_c_6 : Ref sig .tc := ⟨.hbm, 66, rfl⟩
abbrev main_v31 : Ref sig .tc := ⟨.hbm, 67, rfl⟩
abbrev main_v32 : Ref sig .tc := ⟨.hbm, 68, rfl⟩
abbrev main_c_7 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_cst_8 : Ref sig .tc := ⟨.hbm, 80, rfl⟩
abbrev main_call2_cst : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_cst_9 : Ref sig .tc := ⟨.hbm, 92, rfl⟩
abbrev main_call3_cst : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  reducesTo_S262144_S_d0 : S262144.ReducesTo [0] S_
  h_S_ : 0 < S_.numel
  bcast_S_S262144 : S_.BroadcastsInDim S262144 (![] : Fin 0 → Fin S262144.rank)
  bcast_S_S1024x128 : S_.BroadcastsInDim S1024x128 (![] : Fin 0 → Fin S1024x128.rank)
  bcast_S262144_S262144x1_0 : S262144.BroadcastsInDim S262144x1 (![0] : Fin 1 → Fin S262144x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  concatenates_S262144x128_S262144x128_S262144x256_d1 : Shape.Concatenates [S262144x128, S262144x128] S262144x256 1
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  dot_S262144x64_S64x256_S262144x256_1_0_0_1_n_n_wf : DotDims.WF S262144x64 S64x256 S262144x256 [1] [0] [0] [1] [] []
  dot_S262144x256_S256x256_S262144x256_1_0_0_1_n_n_wf : DotDims.WF S262144x256 S256x256 S262144x256 [1] [0] [0] [1] [] []
  dot_S262144x256_S256x128_S262144x128_1_0_0_1_n_n_wf : DotDims.WF S262144x256 S256x128 S262144x128 [1] [0] [0] [1] [] []
  scatter_S1024x128_S262144x1_S262144x128_1_0_0_1_wf : ScatterDims.WF S1024x128 S262144x1 S262144x128 [1] [0] [0] 1
  scatter_S1024_S262144x1_S262144_n_0_0_1_wf : ScatterDims.WF S1024 S262144x1 S262144 [] [0] [0] 1
  gather_S1024x128_S262144x1_S262144x128_1_0_n_n_0_1_1128_wf : GatherDims.WF S1024x128 S262144x1 S262144x128 [1] [0] [] [0] [] 1 ![1, 128]
  dot_S262144x256_S256x64_S262144x64_1_0_0_1_n_n_wf : DotDims.WF S262144x256 S256x64 S262144x64 [1] [0] [0] [1] [] []

variable [Facts₀]

def dot_S262144x64_S64x256_S262144x256_1_0_0_1_n_n : DotDims S262144x64 S64x256 S262144x256 where
  lhsContracting := [1]
  rhsContracting := [0]
  lhsNonContracting := [0]
  rhsNonContracting := [1]
  lhsBatch := []
  rhsBatch := []
  wf := dot_S262144x64_S64x256_S262144x256_1_0_0_1_n_n_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def dot_S262144x256_S256x128_S262144x128_1_0_0_1_n_n : DotDims S262144x256 S256x128 S262144x128 where
  lhsContracting := [1]
  rhsContracting := [0]
  lhsNonContracting := [0]
  rhsNonContracting := [1]
  lhsBatch := []
  rhsBatch := []
  wf := dot_S262144x256_S256x128_S262144x128_1_0_0_1_n_n_wf
def scatter_S1024x128_S262144x1_S262144x128_1_0_0_1 : ScatterDims S1024x128 S262144x1 S262144x128 where
  updateWindowDims := [1]
  insertedWindowDims := [0]
  scatterDimsToOperandDims := [0]
  indexVectorDim := 1
  wf := scatter_S1024x128_S262144x1_S262144x128_1_0_0_1_wf
def scatter_S1024_S262144x1_S262144_n_0_0_1 : ScatterDims S1024 S262144x1 S262144 where
  updateWindowDims := []
  insertedWindowDims := [0]
  scatterDimsToOperandDims := [0]
  indexVectorDim := 1
  wf := scatter_S1024_S262144x1_S262144_n_0_0_1_wf
def gather_S1024x128_S262144x1_S262144x128_1_0_n_n_0_1_1128 : GatherDims S1024x128 S262144x1 S262144x128 where
  offsetDims := [1]
  collapsedSliceDims := [0]
  operandBatchingDims := []
  startIndicesBatchingDims := []
  startIndexMap := [0]
  indexVectorDim := 1
  sliceSizes := ![1, 128]
  wf := gather_S1024x128_S262144x1_S262144x128_1_0_n_n_0_1_1128_wf
def dot_S262144x256_S256x64_S262144x64_1_0_0_1_n_n : DotDims S262144x256 S256x64 S262144x64 where
  lhsContracting := [1]
  rhsContracting := [0]
  lhsNonContracting := [0]
  rhsNonContracting := [1]
  lhsBatch := []
  rhsBatch := []
  wf := dot_S262144x256_S256x64_S262144x64_1_0_0_1_n_n_wf

class Facts : Prop extends Facts₀ where

variable [Facts]
-- ==== Proof.LibBroadcastInDim.lean ====
/-
  The host's `broadcast_in_dim` read at an index given by coordinates, for the four forms a bias row and a per-row scale
  take on their way to a matrix: a column `[a, 1]` spread along its unit axis to `[a, b]`; a row `[1, b]` spread along
  its unit axis to `[a, b]`; a vector `[b]` laid as the row `[1, b]`; and a scalar spread to any shape. The index is
  written with the literal-size constructors `ix1`, `ix2`, so that each lemma applies to a printed operation by
  unification.
-/
import Idealize.ShloMosaic.Lib.Pipeline.Value
import Idealize.ShloMosaic.Lib.ValueIdx

namespace Idealize.ShloMosaic.ValueIdx

open Idealize.ShloMosaic

variable {α : Type}

/-- A column `[a, 1]` spread to `[a, b]` (axes kept in place) reads, at `(p, q)`, the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) :=
  broadcastInDim_apply _ h x (ix2 p q) (ix2 p (0 : Fin 1)) (fun ax => match ax with
    | ⟨0, _⟩ => by
      show p.val = if a = 1 then 0 else p.val
      split
      · have := p.isLt; omega
      · rfl
    | ⟨1, _⟩ => by show 0 = if (1 : Nat) = 1 then 0 else q.val; rw [if_pos rfl])

/-- A row `[1, b]` spread to `[a, b]` (axes kept in place) reads, at `(p, q)`, the row's entry of column `q`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) :=
  broadcastInDim_apply _ h x (ix2 p q) (ix2 (0 : Fin 1) q) (fun ax => match ax with
    | ⟨0, _⟩ => by show 0 = if (1 : Nat) = 1 then 0 else p.val; rw [if_pos rfl]
    | ⟨1, _⟩ => by
      show q.val = if b = 1 then 0 else q.val
      split
      · have := q.isLt; omega
      · rfl)

/-- A vector `[b]` laid as the row `[1, b]` reads, at `(u, q)`, the vector's entry `q`. -/
theorem broadcastInDim_b_1b_apply {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) :=
  broadcastInDim_apply _ h x (ix2 u q) (ix1 q) (fun ax => match ax with
    | ⟨0, _⟩ => by
      show q.val = if b = 1 then 0 else q.val
      split
      · have := q.isLt; omega
      · rfl)

/-- A scalar spread to any shape reads the scalar everywhere. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 (fun ax => ax.elim0)

end Idealize.ShloMosaic.ValueIdx
-- ==== Proof.LibPerceptron.lean ====
/-
  A three-layer perceptron over the extended reals, row by row.

  A LAYER sends an r×k matrix X, a k×n matrix W and a bias row b of length n to the r×n matrix whose entry (a, q) is
  the sum over the contracted coordinate c of X(a, c) · W(c, q), plus b(q). The sum is a plain finite sum on the
  extended reals: addition there is commutative and associative, so no order of summation and no rounding is left in
  it, and nothing here asks that an entry be finite.

  The ACTIVATION is the leaky rectifier entry by entry: v where v ≥ 0, and s · v elsewhere, s being the binary32 number
  nearest to one hundredth. Both programs carry that number as the same word, so it is never evaluated here.

  The PERCEPTRON is layer, activation, layer, activation, layer. Row a of its result depends on row a of X alone, so
  a block of consecutive rows of the result is the perceptron of that block of rows of X (`mlp_rows`): this is what lets
  a kernel that works through X in blocks of rows be compared with a reference that works on X whole.

  A kernel forms a layer on the matrix unit, accumulating into a zero block, with the bias row laid under every row of
  the block; the host forms it by a dot_general with no accumulator and two broadcasts of the bias. At the ideal values
  both are `layer` (`kernelLayer`, `hostLayer`), whatever float formats the factors were narrowed to on the way, a
  change of format being the identity there; and both spell the rectifier as a comparison with zero, a product with s
  and a selection (`kernelAct`, `hostAct`).
-/
import Idealize.ShloMosaic.Lib.StackMember
import Idealize.ShloMosaic.Lib.KernelVsHost
import Idealize.ShloMosaic.Lib.ValueLayout
import Idealize.ShloMosaic.Lib.ValueIdx
import Idealize.ShloMosaic.Lib.Pipeline.Value
import Idealize.ShloMosaic.PureOps.Ideal
import proofs.«144227_j44976897524026_1_alg».proof.Proof.LibBroadcastInDim

noncomputable section

namespace Perceptron

open Idealize.ShloMosaic Idealize.ShloMosaic.ValueIdx

/-- An r×c matrix of extended reals. -/
abbrev Mat (r c : Nat) : Type := (⟨2, ![r, c]⟩ : Shape).Idx → EReal
/-- A row of c extended reals. -/
abbrev Row (c : Nat) : Type := (⟨1, ![c]⟩ : Shape).Idx → EReal

variable {r k n : Nat}

/-! ## The layer, the activation, the perceptron -/

/-- Entry (a, q) of a layer: the sum over c of X(a, c) · W(c, q), plus the bias b(q). -/
def layer (X : Mat r k) (W : Mat k n) (b : Row n) : Mat r n := fun j =>
  (∑ c : Fin k, X (ix2 (j 0) c) * W (ix2 c (j 1))) + b (ix1 (j 1))

theorem layer_apply (X : Mat r k) (W : Mat k n) (b : Row n) (a : Fin r) (q : Fin n) :
    layer X W b (ix2 a q) = (∑ c : Fin k, X (ix2 a c) * W (ix2 c q)) + b (ix1 q) := rfl

/-- The leaky rectifier: v where v ≥ 0, else s · v with s the binary32 number nearest to 1/100, spelt as both programs
    spell it: a comparison with zero selecting between v and the product. -/
def lrelu (v : EReal) : EReal :=
  Scalar.select (FloatOps.cmpf (F := Ideal) (φ := .f32) .oge v (FloatOps.ofBits (F := Ideal) .f32 0x00000000#32)) v
    (FloatOps.mulf (F := Ideal) (φ := .f32) (FloatOps.ofBits (F := Ideal) .f32 0x3C23D70A#32) v)

/-- The rectifier on every entry. -/
def act {s : Shape} (X : s.Idx → EReal) : s.Idx → EReal := fun j => lrelu (X j)

/-- Layer, rectifier, layer, rectifier, layer. -/
def mlp {d0 d1 d2 d3 : Nat} (X : Mat r d0) (W1 : Mat d0 d1) (b1 : Row d1) (W2 : Mat d1 d2) (b2 : Row d2)
    (W3 : Mat d2 d3) (b3 : Row d3) : Mat r d3 :=
  layer (act (layer (act (layer X W1 b1)) W2 b2)) W3 b3

/-! ## Rows -/

/-- Rows off … off + r − 1 of a matrix of R rows. -/
def rows {R : Nat} (r off : Nat) (h : off + r ≤ R) (X : Mat R k) : Mat r k := fun j =>
  X (ix2 ⟨off + (j 0).val, by have := (idx2_lt0 j); omega⟩ (j 1))

theorem rows_apply {R : Nat} (off : Nat) (h : off + r ≤ R) (X : Mat R k) (a : Fin r) (c : Fin k) :
    rows r off h X (ix2 a c) = X (ix2 ⟨off + a.val, by have := a.isLt; omega⟩ c) := rfl

/-- A layer of a block of rows is that block of rows of the layer: row a of a product reads row a of its left factor. -/
theorem layer_rows {R : Nat} (off : Nat) (h : off + r ≤ R) (X : Mat R k) (W : Mat k n) (b : Row n) :
    layer (rows r off h X) W b = rows r off h (layer X W b) := by
  funext j
  obtain ⟨a, q, rfl⟩ : ∃ (a : Fin r) (q : Fin n), j = ix2 a q := ⟨j 0, j 1, eq_ix2 j⟩
  rw [layer_apply, rows_apply, layer_apply]
  rfl

/-- The rectifier works entry by entry, so it commutes with taking rows. -/
theorem act_rows {R : Nat} (off : Nat) (h : off + r ≤ R) (X : Mat R k) :
    act (rows r off h X) = rows r off h (act X) := rfl

/-- A block of rows of the perceptron's result is the perceptron of that block of rows. -/
theorem mlp_rows {R d0 d1 d2 d3 : Nat} (off : Nat) (h : off + r ≤ R) (X : Mat R d0) (W1 : Mat d0 d1) (b1 : Row d1)
    (W2 : Mat d1 d2) (b2 : Row d2) (W3 : Mat d2 d3) (b3 : Row d3) :
    mlp (rows r off h X) W1 b1 W2 b2 W3 b3 = rows r off h (mlp X W1 b1 W2 b2 W3 b3) := by
  unfold mlp
  rw [layer_rows, act_rows, layer_rows, act_rows, layer_rows]

/-! ## The kernel's spelling -/

/-- A change of float format is the identity at the ideal values. -/
theorem truncf_ideal {s : Shape} {φ ψ : FTy} (x : FVec Ideal s φ) (h : ψ.bits < φ.bits) :
    truncf (F := Ideal) ψ x h = x := rfl

/-- The matrix unit's product into a zero block, plus the bias row cast to one row and laid under every row. -/
theorem kernelLayer {φ₁ φ₂ : FTy} (d : DotDims ⟨2, ![r, k]⟩ ⟨2, ![k, n]⟩ ⟨2, ![r, n]⟩) (hd : d = DotDims.plain r k n)
    (prec : Option ContractPrecision) (A : FVec Ideal ⟨2, ![r, k]⟩ φ₁) (B : FVec Ideal ⟨2, ![k, n]⟩ φ₂)
    (v : FVec Ideal ⟨1, ![n]⟩ .f32) (h1 : (⟨1, ![n]⟩ : Shape).ShapeCasts ⟨2, ![1, n]⟩)
    (h2 : (⟨2, ![1, n]⟩ : Shape).Broadcasts ⟨2, ![r, n]⟩) :
    addf (matmul d prec A B (constant (F := Ideal) ⟨2, ![r, n]⟩ .f32 0x00000000#32))
        (broadcastTo ⟨2, ![r, n]⟩ (shapeCast ⟨2, ![1, n]⟩ v h1) h2)
      = layer A B v := by
  subst hd
  funext j
  obtain ⟨a, q, rfl⟩ : ∃ (a : Fin r) (q : Fin n), j = ix2 a q := ⟨j 0, j 1, eq_ix2 j⟩
  rw [layer_apply, matmul_zero_eq_dotGeneral]
  show Host.dotGeneral (DotDims.plain r k n) prec A B (ix2 a q)
      + broadcastTo ⟨2, ![r, n]⟩ (shapeCast ⟨2, ![1, n]⟩ v h1) h2 (ix2 a q) = _
  rw [StackMember.dotGeneral_plain_apply, broadcastTo_1b_ab_apply, shapeCast_a_1a_apply]

/-- The rectifier as a kernel spells it: zero and s splat over the block. -/
theorem kernelAct {s : Shape} (X : FVec Ideal s .f32) :
    select (cmpf .oge X (broadcast s (Scalar.ofBits (F := Ideal) .f32 0x00000000#32))) X
        (mulf (broadcast s (Scalar.ofBits (F := Ideal) .f32 0x3C23D70A#32)) X)
      = act X := rfl

/-! ## The host's spelling -/

/-- The host's product, plus the bias laid as a row and spread over the rows. -/
theorem hostLayer {φ₁ φ₂ : FTy} (d : DotDims ⟨2, ![r, k]⟩ ⟨2, ![k, n]⟩ ⟨2, ![r, n]⟩) (hd : d = DotDims.plain r k n)
    (prec : Option ContractPrecision) (A : FVec Ideal ⟨2, ![r, k]⟩ φ₁) (B : FVec Ideal ⟨2, ![k, n]⟩ φ₂)
    (v : FVec Ideal ⟨1, ![n]⟩ .f32) (h1 : (⟨1, ![n]⟩ : Shape).BroadcastsInDim ⟨2, ![1, n]⟩ ![1])
    (h2 : (⟨2, ![1, n]⟩ : Shape).BroadcastsInDim ⟨2, ![r, n]⟩ ![0, 1]) :
    addf (Host.dotGeneral d prec A B)
        (broadcastInDim ⟨2, ![r, n]⟩ ![0, 1] h2 (broadcastInDim ⟨2, ![1, n]⟩ ![1] h1 v))
      = layer A B v := by
  subst hd
  funext j
  obtain ⟨a, q, rfl⟩ : ∃ (a : Fin r) (q : Fin n), j = ix2 a q := ⟨j 0, j 1, eq_ix2 j⟩
  rw [layer_apply]
  show Host.dotGeneral (DotDims.plain r k n) prec A B (ix2 a q)
      + broadcastInDim ⟨2, ![r, n]⟩ ![0, 1] h2 (broadcastInDim ⟨2, ![1, n]⟩ ![1] h1 v) (ix2 a q) = _
  rw [StackMember.dotGeneral_plain_apply, broadcastInDim_1b_ab_apply, broadcastInDim_b_1b_apply]

/-- The rectifier as the host spells it: zero and s spread from scalars, s passed through a conversion to its own type. -/
theorem hostAct {s : Shape} (X : FVec Ideal s .f32) (h : (⟨0, ![]⟩ : Shape).BroadcastsInDim s ![]) :
    select (cmpf .oge X (broadcastInDim s ![] h (constant (F := Ideal) ⟨0, ![]⟩ .f32 0x00000000#32))) X
        (mulf (broadcastInDim s ![] h (id (constant (F := Ideal) ⟨0, ![]⟩ .f32 0x3C23D70A#32))) X)
      = act X := by
  funext j
  show Scalar.select (FloatOps.cmpf .oge (X j) (broadcastInDim s ![] h (constant (F := Ideal) ⟨0, ![]⟩ .f32 0x00000000#32) j)) (X j)
      (FloatOps.mulf (broadcastInDim s ![] h (id (constant (F := Ideal) ⟨0, ![]⟩ .f32 0x3C23D70A#32)) j) (X j)) = _
  rw [broadcastInDim_scalar_apply, broadcastInDim_scalar_apply]
  rfl

end Perceptron

end
-- ==== Proof.KernelFirst.lean ====
/-
  Region 0 of the kernel's program: the first perceptron, 2048 rows at a time.

  The region's grid has 128 points. At point t the first window holds rows 2048·t … 2048·t + 2047 of x, the six weight
  and bias windows hold their arrays whole, and the body writes the perceptron of that block of rows (`payload_eq`: three
  products on the matrix unit into zero blocks, each with its bias row laid under every row, a leaky rectifier after the
  first two) into the output window, which covers the same rows of the result array. A block of rows of the perceptron's
  result being the perceptron of that block of rows, point t writes back rows 2048·t … 2048·t + 2047 of the perceptron
  of x whole (`flushed_eq`); the 128 blocks tile the 262144 rows (`cover`), so the array ends holding the perceptron of
  x (`array_eq`), whatever the region found in it.

  Everything is stated at a parameter V, the buffer contents when the region is entered.
-/
import proofs.«144227_j44976897524026_1_alg».proof.Proof.Gen.KernelIdeal.Frame
import proofs.«144227_j44976897524026_1_alg».proof.Proof.LibPerceptron
import Idealize.ShloMosaic.Lib.Pipeline.Value

noncomputable section

namespace Cert.KernelIdeal.First

open Cert.KernelIdeal Cert.KernelIdeal.Gen Idealize.ShloMosaic Idealize.ShloMosaic.TcCoe Idealize.SL.Sem
open Idealize.ShloMosaic.ValueIdx
open Idealize.ShloMosaic.Pipeline (Dat)
open Perceptron

variable (V : (c : Dev nD) → (b : Ref sig .tc) → Buf (Elt Ideal) ((c : Thread nD τ).loc b))

/-! ## The body's payload is the perceptron of its loaded blocks -/

theorem payload_eq (x0 : Vec Ideal S2048x64 .f32) (x1 : Vec Ideal S64x256 .f32) (x2 : Vec Ideal S256 .f32)
    (x3 : Vec Ideal S256x256 .f32) (x4 : Vec Ideal S256 .f32) (x5 : Vec Ideal S256x128 .f32) (x6 : Vec Ideal S128 .f32) :
    k0_pay1 x0 x1 x2 x3 x4 x5 x6 = mlp x0 x1 x2 x3 x4 x5 x6 := by
  unfold k0_pay1
  simp only [kernelLayer dot_S2048x64_S64x256_S2048x256_1_0_0_1_n_n rfl,
    kernelLayer dot_S2048x256_S256x256_S2048x256_1_0_0_1_n_n rfl,
    kernelLayer dot_S2048x256_S256x128_S2048x128_1_0_0_1_n_n rfl, kernelAct, truncf_ideal]
  rfl

/-! ## The windows' blocks -/

theorem hz2 : (![0, 0] : Fin 2 → Nat) = fun _ => 0 := funext fun a => by fin_cases a <;> rfl
theorem hz1 : (![0] : Fin 1 → Nat) = fun _ => 0 := funext fun a => by fin_cases a; rfl

/-- The grid has 128 points. -/
theorem point_lt (t : Fin cfg0.N) : t.val < 128 := lt_of_lt_of_eq t.isLt N_0

/-- Block t of 2048 rows lies inside the 262144 rows. -/
theorem rows_inside (t : Fin cfg0.N) : t.val * 2048 + 2048 ≤ 262144 := by have := point_lt t; omega

/-- The printed index maps, decided over the grid: the row windows (x and the result) are at block t of their first
    axis, every other coordinate of every window is 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- Window 0's block at point t is rows 2048·t … of x. -/
theorem block_x (c : Dev nD) (t : Fin cfg0.N) :
    iblk0 V c 0 t = rows 2048 (t.val * 2048) (rows_inside t) (V c main_arg0) := by
  obtain ⟨e0, e1, -⟩ := idx_facts t
  funext y
  show V c main_arg0 (((cfg0.win 0).blk t).view.emb y) = V c main_arg0 (ix2 ⟨t.val * 2048 + (y 0).val, _⟩ (y 1))
  refine congrArg _ ?_
  funext a; apply Fin.ext
  match a with
  | ⟨0, _⟩ => show win0_0.index t (0 : Fin 2) * 2048 + 1 * (y 0).val = t.val * 2048 + (y 0).val; omega
  | ⟨1, _⟩ => show win0_0.index t (1 : Fin 2) * 64 + 1 * (y 1).val = (y 1).val; omega

/-- Windows 1 to 6 hold their arrays whole at every point. -/
theorem block_W1 (c : Dev nD) (t : Fin cfg0.N) : iblk0 V c 1 t = V c main_arg3 := by
  obtain ⟨-, -, e0, e1, -⟩ := idx_facts t
  funext y
  show V c main_arg3 (((cfg0.win 1).blk t).view.emb y) = V c main_arg3 y
  refine congrArg _ ?_
  funext a; apply Fin.ext
  match a with
  | ⟨0, _⟩ => show win0_1.index t (0 : Fin 2) * 64 + 1 * (y 0).val = (y 0).val; omega
  | ⟨1, _⟩ => show win0_1.index t (1 : Fin 2) * 256 + 1 * (y 1).val = (y 1).val; omega

theorem block_b1 (c : Dev nD) (t : Fin cfg0.N) : iblk0 V c 2 t = V c main_arg4 := by
  obtain ⟨-, -, -, -, e0, -⟩ := idx_facts t
  funext y
  show V c main_arg4 (((cfg0.win 2).blk t).view.emb y) = V c main_arg4 y
  refine congrArg _ ?_
  funext a; apply Fin.ext
  match a with
  | ⟨0, _⟩ => show win0_2.index t (0 : Fin 1) * 256 + 1 * (y 0).val = (y 0).val; omega

theorem block_W2 (c : Dev nD) (t : Fin cfg0.N) : iblk0 V c 3 t = V c main_arg5 := by
  obtain ⟨-, -, -, -, -, e0, e1, -⟩ := idx_facts t
  funext y
  show V c main_arg5 (((cfg0.win 3).blk t).view.emb y) = V c main_arg5 y
  refine congrArg _ ?_
  funext a; apply Fin.ext
  match a with
  | ⟨0, _⟩ => show win0_3.index t (0 : Fin 2) * 256 + 1 * (y 0).val = (y 0).val; omega
  | ⟨1, _⟩ => show win0_3.index t (1 : Fin 2) * 256 + 1 * (y 1).val = (y 1).val; omega

theorem block_b2 (c : Dev nD) (t : Fin cfg0.N) : iblk0 V c 4 t = V c main_arg6 := by
  obtain ⟨-, -, -, -, -, -, -, e0, -⟩ := idx_facts t
  funext y
  show V c main_arg6 (((cfg0.win 4).blk t).view.emb y) = V c main_arg6 y
  refine congrArg _ ?_
  funext a; apply Fin.ext
  match a with
  | ⟨0, _⟩ => show win0_4.index t (0 : Fin 1) * 256 + 1 * (y 0).val = (y 0).val; omega

theorem block_W3 (c : Dev nD) (t : Fin cfg0.N) : iblk0 V c 5 t = V c main_arg7 := by
  obtain ⟨-, -, -, -, -, -, -, -, e0, e1, -⟩ := idx_facts t
  funext y
  show V c main_arg7 (((cfg0.win 5).blk t).view.emb y) = V c main_arg7 y
  refine congrArg _ ?_
  funext a; apply Fin.ext
  match a with
  | ⟨0, _⟩ => show win0_5.index t (0 : Fin 2) * 256 + 1 * (y 0).val = (y 0).val; omega
  | ⟨1, _⟩ => show win0_5.index t (1 : Fin 2) * 128 + 1 * (y 1).val = (y 1).val; omega

theorem block_b3 (c : Dev nD) (t : Fin cfg0.N) : iblk0 V c 6 t = V c main_arg8 := by
  obtain ⟨-, -, -, -, -, -, -, -, -, -, e0, -⟩ := idx_facts t
  funext y
  show V c main_arg8 (((cfg0.win 6).blk t).view.emb y) = V c main_arg8 y
  refine congrArg _ ?_
  funext a; apply Fin.ext
  match a with
  | ⟨0, _⟩ => show win0_6.index t (0 : Fin 1) * 128 + 1 * (y 0).val = (y 0).val; omega

/-- The output window's block at point t, read off an array G of the result's shape, is rows 2048·t … of G. -/
theorem block_out (t : Fin cfg0.N) (G : Mat 262144 128) :
    ((cfg0.win 7).blk t).view.read (Elt Ideal) G = rows 2048 (t.val * 2048) (rows_inside t) G := by
  obtain ⟨-, -, -, -, -, -, -, -, -, -, -, e0, e1⟩ := idx_facts t
  funext y
  show G (((cfg0.win 7).blk t).view.emb y) = G (ix2 ⟨t.val * 2048 + (y 0).val, _⟩ (y 1))
  refine congrArg _ ?_
  funext a; apply Fin.ext
  match a with
  | ⟨0, _⟩ => show win0_7.index t (0 : Fin 2) * 2048 + 1 * (y 0).val = t.val * 2048 + (y 0).val; omega
  | ⟨1, _⟩ => show win0_7.index t (1 : Fin 2) * 128 + 1 * (y 1).val = (y 1).val; omega

/-! ## What a point writes back, the cover, the array after the region -/

/-- The perceptron of the arrays as the region finds them. -/
abbrev result (c : Dev nD) : Mat 262144 128 :=
  mlp (V c main_arg0) (V c main_arg3) (V c main_arg4) (V c main_arg5) (V c main_arg6) (V c main_arg7) (V c main_arg8)

/-- Point t writes back block t of the perceptron of x whole. -/
theorem flushed_eq (c : Dev nD) (t : Fin cfg0.N) :
    (dat0 V c).flushed 7 t = ((cfg0.win 7).blk t).view.read (Elt Ideal) (result V c) := by
  show (cfg0.win 7).cut (grid0.coords t) ((dat0 V c).after 7 t) = _
  rw [after0_7]
  unfold out0_7
  rw [View.canon_unit_zero hz2]
  simp only [View.ld_unit_zero (S := S2048x64) hz2, View.ld_unit_zero (S := S64x256) hz2, View.ld_unit_zero (S := S256) hz1,
    View.ld_unit_zero (S := S256x256) hz2, View.ld_unit_zero (S := S256x128) hz2, View.ld_unit_zero (S := S128) hz1]
  rw [payload_eq, block_out]
  show mlp (iblk0 V c 0 t) (iblk0 V c 1 t) (iblk0 V c 2 t) (iblk0 V c 3 t) (iblk0 V c 4 t) (iblk0 V c 5 t) (iblk0 V c 6 t) = _
  rw [block_x, block_W1, block_b1, block_W2, block_b2, block_W3, block_b3, mlp_rows]

/-- An index of the result array is in point t's block iff each coordinate is in the block's range on its axis. -/
theorem mem_block (t : Fin cfg0.N) (i : S262144x128.Idx) :
    i ∈ ((cfg0.win 7).blk t).view.set ↔ ∀ a : Fin 2, win0_7.index t a * S2048x128.size a ≤ (i a).val
      ∧ (i a).val < win0_7.index t a * S2048x128.size a + S2048x128.size a := by
  show i ∈ ((View.whole main_v0).slice (win0_7.rect t)).set ↔ _
  rw [View.set_slice_whole, Rect.mem_set_unit]
  exact Iff.rfl

/-- Row p of the result array is in the block of point p / 2048. -/
theorem cover (i : S262144x128.Idx) :
    ∃ t : Fin cfg0.N, (cfg0.win 7).flush t = true ∧ i ∈ ((cfg0.win 7).blk t).view.set := by
  have hi0 : (i 0).val < 262144 := (i 0).isLt
  have hi1 : (i 1).val < 128 := (i 1).isLt
  obtain ⟨t, ht⟩ : ∃ t : Fin cfg0.N, t.val = (i 0).val / 2048 :=
    ⟨⟨(i 0).val / 2048, lt_of_lt_of_eq (by omega : (i 0).val / 2048 < 128) N_0.symm⟩, rfl⟩
  obtain ⟨-, -, -, -, -, -, -, -, -, -, -, e0, e1⟩ := idx_facts t
  refine ⟨t, flush0_7 t, ?_⟩
  rw [mem_block]
  intro a
  match a with
  | ⟨0, _⟩ =>
    show win0_7.index t (0 : Fin 2) * 2048 ≤ (i 0).val ∧ (i 0).val < win0_7.index t (0 : Fin 2) * 2048 + 2048
    omega
  | ⟨1, _⟩ =>
    show win0_7.index t (1 : Fin 2) * 128 ≤ (i 1).val ∧ (i 1).val < win0_7.index t (1 : Fin 2) * 128 + 128
    omega

/-- After the region the result array holds the perceptron of x, row by row. -/
theorem array_eq (c : Dev nD) : (dat0 V c).arrAt 7 cfg0.N = result V c :=
  (dat0 V c).arrAt_eq_of_cover 7 (result V c) (fun t _ => flushed_eq V c t) cover

end Cert.KernelIdeal.First

end
-- ==== Proof.KernelSecond.lean ====
import proofs.«144227_j44976897524026_1_alg».proof.Proof.Gen.KernelIdeal.Frame
import proofs.«144227_j44976897524026_1_alg».proof.Proof.LibPerceptron
import Idealize.ShloMosaic.Lib.Pipeline.Value

noncomputable section

namespace Cert.KernelIdeal.Second

open Cert.KernelIdeal Cert.KernelIdeal.Gen Idealize.ShloMosaic Idealize.ShloMosaic.TcCoe Idealize.SL.Sem
open Idealize.ShloMosaic.ValueIdx
open Idealize.ShloMosaic.Pipeline (Dat)
open Perceptron

variable (V : (c : Dev nD) → (b : Ref sig .tc) → Buf (Elt Ideal) ((c : Thread nD τ).loc b))

/-! ## The body's payload is the perceptron of its loaded blocks -/

theorem payload_eq (x0 : Vec Ideal S2048x256 .f32) (x1 : Vec Ideal S256x256 .f32) (x2 : Vec Ideal S256 .f32)
    (x3 : Vec Ideal S256x256 .f32) (x4 : Vec Ideal S256 .f32) (x5 : Vec Ideal S256x64 .f32) (x6 : Vec Ideal S64 .f32) :
    k1_pay1 x0 x1 x2 x3 x4 x5 x6 = mlp x0 x1 x2 x3 x4 x5 x6 := by
  unfold k1_pay1
  simp only [shapeCast_self, kernelLayer dot_S2048x256_S256x256_S2048x256_1_0_0_1_n_n rfl,
    kernelLayer dot_S2048x256_S256x64_S2048x64_1_0_0_1_n_n rfl, kernelAct, truncf_ideal]
  rfl

/-! ## The windows' blocks -/

theorem hz2 : (![0, 0] : Fin 2 → Nat) = fun _ => 0 := funext fun a => by fin_cases a <;> rfl
theorem hz1 : (![0] : Fin 1 → Nat) = fun _ => 0 := funext fun a => by fin_cases a; rfl

/-- The grid has 128 points. -/
theorem point_lt (t : Fin cfg1.N) : t.val < 128 := lt_of_lt_of_eq t.isLt N_1

/-- Block t of 2048 rows lies inside the 262144 rows. -/
theorem rows_inside (t : Fin cfg1.N) : t.val * 2048 + 2048 ≤ 262144 := by have := point_lt t; omega

/-- The printed index maps, decided over the grid: the row windows (z and the result) are at block t of their first
    axis, every other coordinate of every window is 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-- Window 0's block at point t is rows 2048·t … of z. -/
theorem block_x (c : Dev nD) (t : Fin cfg1.N) :
    iblk1 V c 0 t = rows 2048 (t.val * 2048) (rows_inside t) (V c main_v25) := by
  obtain ⟨e0, e1, -⟩ := idx_facts t
  funext y
  show V c main_v25 (((cfg1.win 0).blk t).view.emb y) = V c main_v25 (ix2 ⟨t.val * 2048 + (y 0).val, _⟩ (y 1))
  refine congrArg _ ?_
  funext a; apply Fin.ext
  match a with
  | ⟨0, _⟩ => show win1_0.index t (0 : Fin 2) * 2048 + 1 * (y 0).val = t.val * 2048 + (y 0).val; omega
  | ⟨1, _⟩ => show win1_0.index t (1 : Fin 2) * 256 + 1 * (y 1).val = (y 1).val; omega

/-- Windows 1 to 6 hold their arrays whole at every point. -/
theorem block_W1 (c : Dev nD) (t : Fin cfg1.N) : iblk1 V c 1 t = V c main_arg9 := by
  obtain ⟨-, -, e0, e1, -⟩ := idx_facts t
  funext y
  show V c main_arg9 (((cfg1.win 1).blk t).view.emb y) = V c main_arg9 y
  refine congrArg _ ?_
  funext a; apply Fin.ext
  match a with
  | ⟨0, _⟩ => show win1_1.index t (0 : Fin 2) * 256 + 1 * (y 0).val = (y 0).val; omega
  | ⟨1, _⟩ => show win1_1.index t (1 : Fin 2) * 256 + 1 * (y 1).val = (y 1).val; omega

theorem block_b1 (c : Dev nD) (t : Fin cfg1.N) : iblk1 V c 2 t = V c main_arg10 := by
  obtain ⟨-, -, -, -, e0, -⟩ := idx_facts t
  funext y
  show V c main_arg10 (((cfg1.win 2).blk t).view.emb y) = V c main_arg10 y
  refine congrArg _ ?_
  funext a; apply Fin.ext
  match a with
  | ⟨0, _⟩ => show win1_2.index t (0 : Fin 1) * 256 + 1 * (y 0).val = (y 0).val; omega

theorem block_W2 (c : Dev nD) (t : Fin cfg1.N) : iblk1 V c 3 t = V c main_arg11 := by
  obtain ⟨-, -, -, -, -, e0, e1, -⟩ := idx_facts t
  funext y
  show V c main_arg11 (((cfg1.win 3).blk t).view.emb y) = V c main_arg11 y
  refine congrArg _ ?_
  funext a; apply Fin.ext
  match a with
  | ⟨0, _⟩ => show win1_3.index t (0 : Fin 2) * 256 + 1 * (y 0).val = (y 0).val; omega
  | ⟨1, _⟩ => show win1_3.index t (1 : Fin 2) * 256 + 1 * (y 1).val = (y 1).val; omega

theorem block_b2 (c : Dev nD) (t : Fin cfg1.N) : iblk1 V c 4 t = V c main_arg12 := by
  obtain ⟨-, -, -, -, -, -, -, e0, -⟩ := idx_facts t
  funext y
  show V c main_arg12 (((cfg1.win 4).blk t).view.emb y) = V c main_arg12 y
  refine congrArg _ ?_
  funext a; apply Fin.ext
  match a with
  | ⟨0, _⟩ => show win1_4.index t (0 : Fin 1) * 256 + 1 * (y 0).val = (y 0).val; omega

theorem block_W3 (c : Dev nD) (t : Fin cfg1.N) : iblk1 V c 5 t = V c main_arg13 := by
  obtain ⟨-, -, -, -, -, -, -, -, e0, e1, -⟩ := idx_facts t
  funext y
  show V c main_arg13 (((cfg1.win 5).blk t).view.emb y) = V c main_arg13 y
  refine congrArg _ ?_
  funext a; apply Fin.ext
  match a with
  | ⟨0, _⟩ => show win1_5.index t (0 : Fin 2) * 256 + 1 * (y 0).val = (y 0).val; omega
  | ⟨1, _⟩ => show win1_5.index t (1 : Fin 2) * 64 + 1 * (y 1).val = (y 1).val; omega

theorem block_b3 (c : Dev nD) (t : Fin cfg1.N) : iblk1 V c 6 t = V c main_arg14 := by
  obtain ⟨-, -, -, -, -, -, -, -, -, -, e0, -⟩ := idx_facts t
  funext y
  show V c main_arg14 (((cfg1.win 6).blk t).view.emb y) = V c main_arg14 y
  refine congrArg _ ?_
  funext a; apply Fin.ext
  match a with
  | ⟨0, _⟩ => show win1_6.index t (0 : Fin 1) * 64 + 1 * (y 0).val = (y 0).val; omega

/-- The output window's block at point t, read off an array G of the result's shape, is rows 2048·t … of G. -/
theorem block_out (t : Fin cfg1.N) (G : Mat 262144 64) :
    ((cfg1.win 7).blk t).view.read (Elt Ideal) G = rows 2048 (t.val * 2048) (rows_inside t) G := by
  obtain ⟨-, -, -, -, -, -, -, -, -, -, -, e0, e1⟩ := idx_facts t
  funext y
  show G (((cfg1.win 7).blk t).view.emb y) = G (ix2 ⟨t.val * 2048 + (y 0).val, _⟩ (y 1))
  refine congrArg _ ?_
  funext a; apply Fin.ext
  match a with
  | ⟨0, _⟩ => show win1_7.index t (0 : Fin 2) * 2048 + 1 * (y 0).val = t.val * 2048 + (y 0).val; omega
  | ⟨1, _⟩ => show win1_7.index t (1 : Fin 2) * 64 + 1 * (y 1).val = (y 1).val; omega

/-! ## What a point writes back, the cover, the array after the region -/

/-- The perceptron of the arrays as the region finds them. -/
abbrev result (c : Dev nD) : Mat 262144 64 :=
  mlp (V c main_v25) (V c main_arg9) (V c main_arg10) (V c main_arg11) (V c main_arg12) (V c main_arg13) (V c main_arg14)

/-- Point t writes back block t of the perceptron of z whole. -/
theorem flushed_eq (c : Dev nD) (t : Fin cfg1.N) :
    (dat1 V c).flushed 7 t = ((cfg1.win 7).blk t).view.read (Elt Ideal) (result V c) := by
  show (cfg1.win 7).cut (grid1.coords t) ((dat1 V c).after 7 t) = _
  rw [after1_7]
  unfold out1_7
  rw [View.canon_unit_zero hz2]
  simp only [View.ld_unit_zero (S := S2048x256) hz2, View.ld_unit_zero (S := S256x256) hz2, View.ld_unit_zero (S := S256) hz1,
    View.ld_unit_zero (S := S256x64) hz2, View.ld_unit_zero (S := S64) hz1]
  rw [payload_eq, block_out]
  show mlp (iblk1 V c 0 t) (iblk1 V c 1 t) (iblk1 V c 2 t) (iblk1 V c 3 t) (iblk1 V c 4 t) (iblk1 V c 5 t) (iblk1 V c 6 t) = _
  rw [block_x, block_W1, block_b1, block_W2, block_b2, block_W3, block_b3, mlp_rows]

/-- An index of the result array is in point t's block iff each coordinate is in the block's range on its axis. -/
theorem mem_block (t : Fin cfg1.N) (i : S262144x64.Idx) :
    i ∈ ((cfg1.win 7).blk t).view.set ↔ ∀ a : Fin 2, win1_7.index t a * S2048x64.size a ≤ (i a).val
      ∧ (i a).val < win1_7.index t a * S2048x64.size a + S2048x64.size a := by
  show i ∈ ((View.whole main_v26).slice (win1_7.rect t)).set ↔ _
  rw [View.set_slice_whole, Rect.mem_set_unit]
  exact Iff.rfl

/-- Row p of the result array is in the block of point p / 2048. -/
theorem cover (i : S262144x64.Idx) :
    ∃ t : Fin cfg1.N, (cfg1.win 7).flush t = true ∧ i ∈ ((cfg1.win 7).blk t).view.set := by
  have hi0 : (i 0).val < 262144 := (i 0).isLt
  have hi1 : (i 1).val < 64 := (i 1).isLt
  obtain ⟨t, ht⟩ : ∃ t : Fin cfg1.N, t.val = (i 0).val / 2048 :=
    ⟨⟨(i 0).val / 2048, lt_of_lt_of_eq (by omega : (i 0).val / 2048 < 128) N_1.symm⟩, rfl⟩
  obtain ⟨-, -, -, -, -, -, -, -, -, -, -, e0, e1⟩ := idx_facts t
  refine ⟨t, flush1_7 t, ?_⟩
  rw [mem_block]
  intro a
  match a with
  | ⟨0, _⟩ =>
    show win1_7.index t (0 : Fin 2) * 2048 ≤ (i 0).val ∧ (i 0).val < win1_7.index t (0 : Fin 2) * 2048 + 2048
    omega
  | ⟨1, _⟩ =>
    show win1_7.index t (1 : Fin 2) * 64 ≤ (i 1).val ∧ (i 1).val < win1_7.index t (1 : Fin 2) * 64 + 64
    omega

/-- After the region the result array holds the perceptron of z, row by row. -/
theorem array_eq (c : Dev nD) : (dat1 V c).arrAt 7 cfg1.N = result V c :=
  (dat1 V c).arrAt_eq_of_cover 7 (result V c) (fun t _ => flushed_eq V c t) cover

end Cert.KernelIdeal.Second

end
-- ==== Proof.RefOpsTable.lean ====
import proofs.«144227_j44976897524026_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first perceptron: 28 operations, the last writing its result `main_v13`. -/
abbrev ops1 : List (HloOp τ sig (Elt F)) :=
  [ binary main_arg0 main_arg3 main_v0 (fun l r => Host.dotGeneral dot_S262144x64_S64x256_S262144x256_1_0_0_1_n_n none l r),
    unary main_arg4 main_v1 (broadcastInDim S1x256 ![1] bcast_S256_S1x256_1),
    unary main_v1 main_v2 (broadcastInDim S262144x256 ![0, 1] bcast_S1x256_S262144x256_0_1),
    binary main_v0 main_v2 main_v3 addf,
    nullary main_cst (constant S_ .f32 0x3C23D70A#32),
    nullary main_call0_cst (constant S_ .f32 0x00000000#32),
    unary main_call0_cst main_call0_v0 (broadcastInDim S262144x256 ![] bcast_S_S262144x256),
    binary main_v3 main_call0_v0 main_call0_v1 (cmpf .oge),
    unary main_cst main_call0_v2 id,
    unary main_call0_v2 main_call0_v3 (broadcastInDim S262144x256 ![] bcast_S_S262144x256),
    binary main_call0_v3 main_v3 main_call0_v4 mulf,
    ternary main_call0_v1 main_v3 main_call0_v4 main_v4 select,
    binary main_v4 main_arg5 main_v5 (fun l r => Host.dotGeneral dot_S262144x256_S256x256_S262144x256_1_0_0_1_n_n none l r),
    unary main_arg6 main_v6 (broadcastInDim S1x256 ![1] bcast_S256_S1x256_1),
    unary main_v6 main_v7 (broadcastInDim S262144x256 ![0, 1] bcast_S1x256_S262144x256_0_1),
    binary main_v5 main_v7 main_v8 addf,
    nullary main_cst_0 (constant S_ .f32 0x3C23D70A#32),
    nullary main_call1_cst (constant S_ .f32 0x00000000#32),
    unary main_call1_cst main_call1_v0 (broadcastInDim S262144x256 ![] bcast_S_S262144x256),
    binary main_v8 main_call1_v0 main_call1_v1 (cmpf .oge),
    unary main_cst_0 main_call1_v2 id,
    unary main_call1_v2 main_call1_v3 (broadcastInDim S262144x256 ![] bcast_S_S262144x256),
    binary main_call1_v3 main_v8 main_call1_v4 mulf,
    ternary main_call1_v1 main_v8 main_call1_v4 main_v9 select,
    binary main_v9 main_arg7 main_v10 (fun l r => Host.dotGeneral dot_S262144x256_S256x128_S262144x128_1_0_0_1_n_n none l r),
    unary main_arg8 main_v11 (broadcastInDim S1x128 ![1] bcast_S128_S1x128_1),
    unary main_v11 main_v12 (broadcastInDim S262144x128 ![0, 1] bcast_S1x128_S262144x128_0_1),
    binary main_v10 main_v12 main_v13 addf ]

/-- The grouping stage: 33 operations from `main_v13` and the integer columns to the widened rows `main_v38`. -/
abbrev ops2 : List (HloOp τ sig (Elt F)) :=
  [ nullary main_c (constantI S_ 32 2147483648#32),
    binary main_arg1 main_c main_v14 (fun x v => Host.reduce IntOp.maxsi x v reducesTo_S262144_S_d0 h_S_),
    nullary main_c_1 (constantI S_ 32 1#32),
    binary main_v14 main_c_1 main_v15 addi,
    unary main_v15 main_v16 (broadcastInDim S262144 ![] bcast_S_S262144),
    binary main_arg2 main_v16 main_v17 muli,
    binary main_arg1 main_v17 main_v18 addi,
    nullary main_cst_2 (constant S_ .f32 0x00000000#32),
    unary main_cst_2 main_v19 (broadcastInDim S1024x128 ![] bcast_S_S1024x128),
    unary main_v18 main_v20 (broadcastInDim S262144x1 ![0] bcast_S262144_S262144x1_0),
    ternary main_v19 main_v20 main_v13 main_v21 (fun x i u => Host.scatterAdd scatter_S1024x128_S262144x1_S262144x128_1_0_0_1 x i u),
    nullary main_cst_3 (constant S_ .f32 0x3F800000#32),
    unary main_cst_3 main_v22 (broadcastInDim S262144 ![] bcast_S_S262144),
    nullary main_cst_4 (constant S_ .f32 0x00000000#32),
    unary main_cst_4 main_v23 (broadcastInDim S1024 ![] bcast_S_S1024),
    unary main_v18 main_v24 (broadcastInDim S262144x1 ![0] bcast_S262144_S262144x1_0),
    ternary main_v23 main_v24 main_v22 main_v25 (fun x i u => Host.scatterAdd scatter_S1024_S262144x1_S262144_n_0_0_1 x i u),
    nullary main_cst_5 (constant S_ .f32 0x3F800000#32),
    unary main_cst_5 main_v26 (broadcastInDim S1024 ![] bcast_S_S1024),
    binary main_v25 main_v26 main_v27 maximumf,
    unary main_v27 main_v28 (broadcastInDim S1024x1 ![0] bcast_S1024_S1024x1_0),
    unary main_v28 main_v29 (broadcastInDim S1024x128 ![0, 1] bcast_S1024x1_S1024x128_0_1),
    binary main_v21 main_v29 main_v30 Host.divf,
    nullary main_c_6 (constantI S_ 32 0#32),
    unary main_c_6 main_v31 (broadcastInDim S262144 ![] bcast_S_S262144),
    binary main_v18 main_v31 main_v32 (cmpi .slt),
    nullary main_c_7 (constantI S_ 32 1024#32),
    unary main_c_7 main_v33 (broadcastInDim S262144 ![] bcast_S_S262144),
    binary main_v18 main_v33 main_v34 addi,
    ternary main_v32 main_v34 main_v18 main_v35 select,
    unary main_v35 main_v36 (broadcastInDim S262144x1 ![0] bcast_S262144_S262144x1_0),
    binary main_v30 main_v36 main_v37 (fun x i => Host.gather gather_S1024x128_S262144x1_S262144x128_1_0_n_n_0_1_1128 x i),
    binary main_v13 main_v37 main_v38 (fun a b => concatenate S262144x256 1 [⟨S262144x128, a⟩, ⟨S262144x128, b⟩] concatenates_S262144x128_S262144x128_S262144x256_d1) ]

/-- The second perceptron: 28 operations from `main_v38` to the result `main_v52`. -/
abbrev ops3 : List (HloOp τ sig (Elt F)) :=
  [ binary main_v38 main_arg9 main_v39 (fun l r => Host.dotGeneral dot_S262144x256_S256x256_S262144x256_1_0_0_1_n_n none l r),
    unary main_arg10 main_v40 (broadcastInDim S1x256 ![1] bcast_S256_S1x256_1),
    unary main_v40 main_v41 (broadcastInDim S262144x256 ![0, 1] bcast_S1x256_S262144x256_0_1),
    binary main_v39 main_v41 main_v42 addf,
    nullary main_cst_8 (constant S_ .f32 0x3C23D70A#32),
    nullary main_call2_cst (constant S_ .f32 0x00000000#32),
    unary main_call2_cst main_call2_v0 (broadcastInDim S262144x256 ![] bcast_S_S262144x256),
    binary main_v42 main_call2_v0 main_call2_v1 (cmpf .oge),
    unary main_cst_8 main_call2_v2 id,
    unary main_call2_v2 main_call2_v3 (broadcastInDim S262144x256 ![] bcast_S_S262144x256),
    binary main_call2_v3 main_v42 main_call2_v4 mulf,
    ternary main_call2_v1 main_v42 main_call2_v4 main_v43 select,
    binary main_v43 main_arg11 main_v44 (fun l r => Host.dotGeneral dot_S262144x256_S256x256_S262144x256_1_0_0_1_n_n none l r),
    unary main_arg12 main_v45 (broadcastInDim S1x256 ![1] bcast_S256_S1x256_1),
    unary main_v45 main_v46 (broadcastInDim S262144x256 ![0, 1] bcast_S1x256_S262144x256_0_1),
    binary main_v44 main_v46 main_v47 addf,
    nullary main_cst_9 (constant S_ .f32 0x3C23D70A#32),
    nullary main_call3_cst (constant S_ .f32 0x00000000#32),
    unary main_call3_cst main_call3_v0 (broadcastInDim S262144x256 ![] bcast_S_S262144x256),
    binary main_v47 main_call3_v0 main_call3_v1 (cmpf .oge),
    unary main_cst_9 main_call3_v2 id,
    unary main_call3_v2 main_call3_v3 (broadcastInDim S262144x256 ![] bcast_S_S262144x256),
    binary main_call3_v3 main_v47 main_call3_v4 mulf,
    ternary main_call3_v1 main_v47 main_call3_v4 main_v48 select,
    binary main_v48 main_arg13 main_v49 (fun l r => Host.dotGeneral dot_S262144x256_S256x64_S262144x64_1_0_0_1_n_n none l r),
    unary main_arg14 main_v50 (broadcastInDim S1x64 ![1] bcast_S64_S1x64_1),
    unary main_v50 main_v51 (broadcastInDim S262144x64 ![0, 1] bcast_S1x64_S262144x64_0_1),
    binary main_v49 main_v51 main_v52 addf ]

theorem ops1_sub : (ops1 : List (HloOp τ sig (Elt F))).Forall fun op => op.bufs ⊆ tcRefs τ sig :=
  ⟨binary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    binary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    binary_bufs_sub .., unary_bufs_sub .., unary_bufs_sub .., binary_bufs_sub ..⟩

theorem ops2_sub : (ops2 : List (HloOp τ sig (Elt F))).Forall fun op => op.bufs ⊆ tcRefs τ sig :=
  ⟨nullary_bufs_sub .., binary_bufs_sub .., nullary_bufs_sub .., binary_bufs_sub .., unary_bufs_sub .., binary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub ..⟩

theorem ops3_sub : (ops3 : List (HloOp τ sig (Elt F))).Forall fun op => op.bufs ⊆ tcRefs τ sig :=
  ⟨binary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    binary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    binary_bufs_sub .., unary_bufs_sub .., unary_bufs_sub .., binary_bufs_sub ..⟩

end Cert.ReferenceIdeal.RefRun

end
-- ==== Proof.RefOps.lean ====
/-
  The reference's @main as a straight line of host operations, in three stretches.

  The first stretch is a perceptron of the rows of x (three products with a bias, a leaky rectifier after the first
  two); the second groups the rows — a group number per row from the two integer columns, the rows of each group
  summed and counted, the sums divided by the counts (at least one), each row's group mean fetched back and set beside
  the row —; the third is a second perceptron of the widened rows. The rectifier is a function of the module called
  four times; a call runs the callee's seven operations on the call's own buffers, and they are written out here at
  each call. The grouping stage is named as ONE function `regroup` of the first perceptron's result and the two integer
  columns: nothing below looks inside it. The three lists of operations themselves (`ops1`, `ops2`, `ops3`) and their
  buffer facts are laid out in RefOpsTable.lean.
-/
import proofs.«144227_j44976897524026_1_alg».proof.Proof.RefOpsTable
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 89 operations, in order. -/
abbrev ops : List (HloOp τ sig (Elt F)) := ops1 ++ (ops2 ++ ops3)

set_option maxHeartbeats 8000000 in
/-- @main is that straight line: the two windows it is printed in and the rectifier's body at its four calls unfolded,
    both sides are one chain of operations once sequencing is reassociated. -/
theorem main_eq (c : Dev nD) : main (F := F) c = seq ops := by
  rw [show (ops : List (HloOp τ sig (Elt F))) = ops1 ++ (ops2 ++ ops3) from rfl, seq_append, seq_append]
  simp only [main, main_part0, main_part1, fn_leaky_relu.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  rw [List.forall_iff_forall_mem]
  intro op hop
  rcases List.mem_append.mp hop with h | h
  · exact (List.forall_iff_forall_mem.mp ops1_sub) op h
  rcases List.mem_append.mp h with h | h
  · exact (List.forall_iff_forall_mem.mp ops2_sub) op h
  · exact (List.forall_iff_forall_mem.mp ops3_sub) op h

/-- At the compiled mesh, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- Operations run one after the other fold one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## The grouping stage as one function -/

/-- Row i's group number: its first integer plus its second times (the largest first integer, plus one). -/
def groupIds (a b : IVec S262144 32) : IVec S262144 32 :=
  addi a (muli b (broadcastInDim S262144 ![] bcast_S_S262144
    (addi (Host.reduce IntOp.maxsi a (constantI S_ 32 2147483648#32) reducesTo_S262144_S_d0 h_S_) (constantI S_ 32 1#32))))

/-- The rows of h set beside their groups' means: per group the sum of its rows over the larger of its row count
    and one, fetched back for each row (a negative group number wrapped once by the number of groups) and laid to the
    right of the row. -/
def regroup (h : FVec F S262144x128 .f32) (a b : IVec S262144 32) : FVec F S262144x256 .f32 :=
  concatenate S262144x256 1
    [⟨S262144x128, h⟩,
     ⟨S262144x128, Host.gather gather_S1024x128_S262144x1_S262144x128_1_0_n_n_0_1_1128
        (Host.divf
          (Host.scatterAdd scatter_S1024x128_S262144x1_S262144x128_1_0_0_1
            (broadcastInDim S1024x128 ![] bcast_S_S1024x128 (constant S_ .f32 0x00000000#32))
            (broadcastInDim S262144x1 ![0] bcast_S262144_S262144x1_0 (groupIds a b)) h)
          (broadcastInDim S1024x128 ![0, 1] bcast_S1024x1_S1024x128_0_1
            (broadcastInDim S1024x1 ![0] bcast_S1024_S1024x1_0
              (maximumf
                (Host.scatterAdd scatter_S1024_S262144x1_S262144_n_0_0_1
                  (broadcastInDim S1024 ![] bcast_S_S1024 (constant S_ .f32 0x00000000#32))
                  (broadcastInDim S262144x1 ![0] bcast_S262144_S262144x1_0 (groupIds a b))
                  (broadcastInDim S262144 ![] bcast_S_S262144 (constant S_ .f32 0x3F800000#32)))
                (broadcastInDim S1024 ![] bcast_S_S1024 (constant S_ .f32 0x3F800000#32))))))
        (broadcastInDim S262144x1 ![0] bcast_S262144_S262144x1_0
          (select (cmpi .slt (groupIds a b) (broadcastInDim S262144 ![] bcast_S_S262144 (constantI S_ 32 0#32)))
            (addi (groupIds a b) (broadcastInDim S262144 ![] bcast_S_S262144 (constantI S_ 32 1024#32)))
            (groupIds a b)))⟩]
    concatenates_S262144x128_S262144x128_S262144x256_d1

end Cert.ReferenceIdeal.RefRun

end
-- ==== Proof.RefValue.lean ====
/-
  The reference's run read back at the ideal values.

  The first stretch leaves in `main_v13` the perceptron of x with the first three weight matrices and bias rows; the
  second leaves in `main_v38` the grouping stage `regroup` of that array and the two integer columns; the third leaves in
  `main_v52` the perceptron of `main_v38` with the last three weight matrices and bias rows. Each stretch reads the
  arguments it needs unchanged by the stretches before it, so the result is the second perceptron of the regrouped
  first perceptron, as ONE term of the argument arrays (`out_eq`); and no operation writes an argument (`kept_arg…`).
-/
import proofs.«144227_j44976897524026_1_alg».proof.Proof.RefOps
import proofs.«144227_j44976897524026_1_alg».proof.Proof.LibPerceptron

set_option maxHeartbeats 4000000

noncomputable section

namespace Cert.ReferenceIdeal.RefRun

open Cert.ReferenceIdeal Cert.ReferenceIdeal.Gen Idealize.ShloMosaic Idealize.ShloMosaic.TcCoe Idealize.SL.Sem Idealize.ShloMosaic.StableHlo
open Perceptron

variable (V : Valuation τ sig (Elt Ideal))

/-! ## The three stretches -/

/-- The first stretch computes the perceptron of x. -/
theorem first_eq : after ops1 V (main_v13 : DevRef τ sig)
    = mlp (V (main_arg0 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  after_results_simp
  simp only [hostLayer dot_S262144x64_S64x256_S262144x256_1_0_0_1_n_n rfl,
    hostLayer dot_S262144x256_S256x256_S262144x256_1_0_0_1_n_n rfl,
    hostLayer dot_S262144x256_S256x128_S262144x128_1_0_0_1_n_n rfl, hostAct]
  rfl

/-- The second stretch is the grouping stage of `main_v13` and the two integer columns. -/
theorem second_eq : after ops2 V (main_v38 : DevRef τ sig)
    = regroup (F := Ideal) (V (main_v13 : DevRef τ sig)) (V (main_arg1 : DevRef τ sig)) (V (main_arg2 : DevRef τ sig)) := by
  unfold regroup groupIds
  after_results

/-- The third stretch computes the perceptron of `main_v38`. -/
theorem third_eq : after ops3 V (main_v52 : DevRef τ sig)
    = mlp (V (main_v38 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  after_results_simp
  simp only [hostLayer dot_S262144x256_S256x256_S262144x256_1_0_0_1_n_n rfl,
    hostLayer dot_S262144x256_S256x64_S262144x64_1_0_0_1_n_n rfl, hostAct]
  rfl

/-! ## What a stretch leaves alone -/

theorem first_kept_arg1 : after ops1 V (main_arg1 : DevRef τ sig) = V (main_arg1 : DevRef τ sig) := by after_results_simp
theorem first_kept_arg2 : after ops1 V (main_arg2 : DevRef τ sig) = V (main_arg2 : DevRef τ sig) := by after_results_simp
theorem first_kept_arg9 : after ops1 V (main_arg9 : DevRef τ sig) = V (main_arg9 : DevRef τ sig) := by after_results_simp
theorem first_kept_arg10 : after ops1 V (main_arg10 : DevRef τ sig) = V (main_arg10 : DevRef τ sig) := by after_results_simp
theorem first_kept_arg11 : after ops1 V (main_arg11 : DevRef τ sig) = V (main_arg11 : DevRef τ sig) := by after_results_simp
theorem first_kept_arg12 : after ops1 V (main_arg12 : DevRef τ sig) = V (main_arg12 : DevRef τ sig) := by after_results_simp
theorem first_kept_arg13 : after ops1 V (main_arg13 : DevRef τ sig) = V (main_arg13 : DevRef τ sig) := by after_results_simp
theorem first_kept_arg14 : after ops1 V (main_arg14 : DevRef τ sig) = V (main_arg14 : DevRef τ sig) := by after_results_simp

theorem second_kept_arg9 : after ops2 V (main_arg9 : DevRef τ sig) = V (main_arg9 : DevRef τ sig) := by after_results_simp
theorem second_kept_arg10 : after ops2 V (main_arg10 : DevRef τ sig) = V (main_arg10 : DevRef τ sig) := by after_results_simp
theorem second_kept_arg11 : after ops2 V (main_arg11 : DevRef τ sig) = V (main_arg11 : DevRef τ sig) := by after_results_simp
theorem second_kept_arg12 : after ops2 V (main_arg12 : DevRef τ sig) = V (main_arg12 : DevRef τ sig) := by after_results_simp
theorem second_kept_arg13 : after ops2 V (main_arg13 : DevRef τ sig) = V (main_arg13 : DevRef τ sig) := by after_results_simp
theorem second_kept_arg14 : after ops2 V (main_arg14 : DevRef τ sig) = V (main_arg14 : DevRef τ sig) := by after_results_simp

/-! ## The whole line -/

/-- What both programs compute, as one function of the fifteen argument arrays: the second perceptron of the regrouped
    first perceptron. -/
def whole (x : Mat 262144 64) (a b : IVec S262144 32) (W1 : Mat 64 256) (b1 : Row 256) (W2 : Mat 256 256) (b2 : Row 256)
    (W3 : Mat 256 128) (b3 : Row 128) (A1 : Mat 256 256) (c1 : Row 256) (A2 : Mat 256 256) (c2 : Row 256)
    (A3 : Mat 256 64) (c3 : Row 64) : Mat 262144 64 :=
  mlp (regroup (F := Ideal) (mlp x W1 b1 W2 b2 W3 b3) a b) A1 c1 A2 c2 A3 c3

/-- The reference's result is that function of its argument arrays. -/
theorem out_eq : after ops V (main_v52 : DevRef τ sig)
    = whole (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig))
        (V (main_arg9 : DevRef τ sig)) (V (main_arg10 : DevRef τ sig)) (V (main_arg11 : DevRef τ sig)) (V (main_arg12 : DevRef τ sig)) (V (main_arg13 : DevRef τ sig)) (V (main_arg14 : DevRef τ sig)) := by
  unfold whole
  show after (ops1 ++ (ops2 ++ ops3)) V (main_v52 : DevRef τ sig) = _
  rw [after_append, after_append, third_eq, second_eq, first_eq,
    second_kept_arg9, second_kept_arg10, second_kept_arg11, second_kept_arg12, second_kept_arg13, second_kept_arg14,
    first_kept_arg1, first_kept_arg2,
    first_kept_arg9, first_kept_arg10, first_kept_arg11, first_kept_arg12, first_kept_arg13, first_kept_arg14]

/-- No operation writes an argument. -/
theorem kept_arg0 : after ops V (main_arg0 : DevRef τ sig) = V (main_arg0 : DevRef τ sig) := by
  show after (ops1 ++ (ops2 ++ ops3)) V _ = _
  rw [after_append, after_append]; after_results_simp
theorem kept_arg1 : after ops V (main_arg1 : DevRef τ sig) = V (main_arg1 : DevRef τ sig) := by
  show after (ops1 ++ (ops2 ++ ops3)) V _ = _
  rw [after_append, after_append]; after_results_simp
theorem kept_arg2 : after ops V (main_arg2 : DevRef τ sig) = V (main_arg2 : DevRef τ sig) := by
  show after (ops1 ++ (ops2 ++ ops3)) V _ = _
  rw [after_append, after_append]; after_results_simp
theorem kept_arg3 : after ops V (main_arg3 : DevRef τ sig) = V (main_arg3 : DevRef τ sig) := by
  show after (ops1 ++ (ops2 ++ ops3)) V _ = _
  rw [after_append, after_append]; after_results_simp
theorem kept_arg4 : after ops V (main_arg4 : DevRef τ sig) = V (main_arg4 : DevRef τ sig) := by
  show after (ops1 ++ (ops2 ++ ops3)) V _ = _
  rw [after_append, after_append]; after_results_simp
theorem kept_arg5 : after ops V (main_arg5 : DevRef τ sig) = V (main_arg5 : DevRef τ sig) := by
  show after (ops1 ++ (ops2 ++ ops3)) V _ = _
  rw [after_append, after_append]; after_results_simp
theorem kept_arg6 : after ops V (main_arg6 : DevRef τ sig) = V (main_arg6 : DevRef τ sig) := by
  show after (ops1 ++ (ops2 ++ ops3)) V _ = _
  rw [after_append, after_append]; after_results_simp
theorem kept_arg7 : after ops V (main_arg7 : DevRef τ sig) = V (main_arg7 : DevRef τ sig) := by
  show after (ops1 ++ (ops2 ++ ops3)) V _ = _
  rw [after_append, after_append]; after_results_simp
theorem kept_arg8 : after ops V (main_arg8 : DevRef τ sig) = V (main_arg8 : DevRef τ sig) := by
  show after (ops1 ++ (ops2 ++ ops3)) V _ = _
  rw [after_append, after_append]; after_results_simp
theorem kept_arg9 : after ops V (main_arg9 : DevRef τ sig) = V (main_arg9 : DevRef τ sig) := by
  show after (ops1 ++ (ops2 ++ ops3)) V _ = _
  rw [after_append, after_append]; after_results_simp
theorem kept_arg10 : after ops V (main_arg10 : DevRef τ sig) = V (main_arg10 : DevRef τ sig) := by
  show after (ops1 ++ (ops2 ++ ops3)) V _ = _
  rw [after_append, after_append]; after_results_simp
theorem kept_arg11 : after ops V (main_arg11 : DevRef τ sig) = V (main_arg11 : DevRef τ sig) := by
  show after (ops1 ++ (ops2 ++ ops3)) V _ = _
  rw [after_append, after_append]; after_results_simp
theorem kept_arg12 : after ops V (main_arg12 : DevRef τ sig) = V (main_arg12 : DevRef τ sig) := by
  show after (ops1 ++ (ops2 ++ ops3)) V _ = _
  rw [after_append, after_append]; after_results_simp
theorem kept_arg13 : after ops V (main_arg13 : DevRef τ sig) = V (main_arg13 : DevRef τ sig) := by
  show after (ops1 ++ (ops2 ++ ops3)) V _ = _
  rw [after_append, after_append]; after_results_simp
theorem kept_arg14 : after ops V (main_arg14 : DevRef τ sig) = V (main_arg14 : DevRef τ sig) := by
  show after (ops1 ++ (ops2 ++ ops3)) V _ = _
  rw [after_append, after_append]; after_results_simp

end Cert.ReferenceIdeal.RefRun

end
-- ==== Proof.KernelWhole.lean ====
/-
  The kernel's program read whole, at the ideal values.

  Region 0 leaves the first perceptron of x in `main_v0`. The host operations between the regions are the reference's
  grouping stage operation for operation, so they leave `regroup` of that array and the two integer columns in
  `main_v25`, and they write no argument. Region 1 leaves the second perceptron of `main_v25` in `main_v26`. Read back
  through the buffer contents at the segment boundaries, the result array ends at `whole` of the fifteen argument
  arrays: the function the reference computes.
-/
import proofs.«144227_j44976897524026_1_alg».proof.Proof.KernelNamed
import proofs.«144227_j44976897524026_1_alg».proof.Proof.KernelFirst
import proofs.«144227_j44976897524026_1_alg».proof.Proof.KernelSecond
import proofs.«144227_j44976897524026_1_alg».proof.Proof.RefValue
import Idealize.ShloMosaic.Lib.StableHlo.Run

set_option maxHeartbeats 4000000

noncomputable section

namespace Cert.KernelIdeal.Whole

open Cert.KernelIdeal Cert.KernelIdeal.Gen Idealize.ShloMosaic Idealize.ShloMosaic.TcCoe Idealize.SL.Sem
open Perceptron

/-! ## The host operations between the regions -/

section Between

variable (W : Valuation τ sig (Elt Ideal))

/-- They are the grouping stage of region 0's result and the two integer columns. -/
theorem between_eq : StableHlo.after hostOps1 W (Proc.devRef .tc main_v25)
    = Cert.ReferenceIdeal.RefRun.regroup (F := Ideal) (W (Proc.devRef .tc main_v0)) (W (Proc.devRef .tc main_arg1))
        (W (Proc.devRef .tc main_arg2)) := by
  unfold Cert.ReferenceIdeal.RefRun.regroup Cert.ReferenceIdeal.RefRun.groupIds
  after_results
  rfl

/-- They write none of the second perceptron's weights and biases. -/
theorem between_kept_arg9 : StableHlo.after hostOps1 W (Proc.devRef .tc main_arg9) = W (Proc.devRef .tc main_arg9) := by after_results_simp
theorem between_kept_arg10 : StableHlo.after hostOps1 W (Proc.devRef .tc main_arg10) = W (Proc.devRef .tc main_arg10) := by after_results_simp
theorem between_kept_arg11 : StableHlo.after hostOps1 W (Proc.devRef .tc main_arg11) = W (Proc.devRef .tc main_arg11) := by after_results_simp
theorem between_kept_arg12 : StableHlo.after hostOps1 W (Proc.devRef .tc main_arg12) = W (Proc.devRef .tc main_arg12) := by after_results_simp
theorem between_kept_arg13 : StableHlo.after hostOps1 W (Proc.devRef .tc main_arg13) = W (Proc.devRef .tc main_arg13) := by after_results_simp
theorem between_kept_arg14 : StableHlo.after hostOps1 W (Proc.devRef .tc main_arg14) = W (Proc.devRef .tc main_arg14) := by after_results_simp

end Between

variable (m : (ℓ : Loc nD τ sig) → Buf (Elt Ideal) ℓ) (ρ : Dev nD → PrngReg)

/-! ## The boundaries' contents -/

/-- After region 0, `main_v0` holds the first perceptron of x. -/
theorem first_out (c : Dev nD) : W1 m ρ c (Proc.devRef .tc main_v0)
    = mlp (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W1_arr m ρ c 7).trans (First.array_eq (V0 m ρ) c)

/-- Region 1 finds the regrouped first perceptron in `main_v25`, -/
theorem entry_z (c : Dev nD) : V2 m ρ c main_v25
    = Cert.ReferenceIdeal.RefRun.regroup (F := Ideal)
        (mlp (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg1)) (m ((c : Thread nD τ).loc main_arg2)) := by
  show StableHlo.after hostOps1 (W1 m ρ c) (Proc.devRef .tc main_v25) = _
  rw [between_eq, first_out, W1_of_ne m ρ c main_arg1 (by decide), W1_of_ne m ρ c main_arg2 (by decide)]

/-- and the second perceptron's weights and biases as launched. -/
theorem entry_arg9 (c : Dev nD) : V2 m ρ c main_arg9 = m ((c : Thread nD τ).loc main_arg9) := by
  show StableHlo.after hostOps1 (W1 m ρ c) (Proc.devRef .tc main_arg9) = _
  rw [between_kept_arg9]; exact W1_of_ne m ρ c main_arg9 (by decide)
theorem entry_arg10 (c : Dev nD) : V2 m ρ c main_arg10 = m ((c : Thread nD τ).loc main_arg10) := by
  show StableHlo.after hostOps1 (W1 m ρ c) (Proc.devRef .tc main_arg10) = _
  rw [between_kept_arg10]; exact W1_of_ne m ρ c main_arg10 (by decide)
theorem entry_arg11 (c : Dev nD) : V2 m ρ c main_arg11 = m ((c : Thread nD τ).loc main_arg11) := by
  show StableHlo.after hostOps1 (W1 m ρ c) (Proc.devRef .tc main_arg11) = _
  rw [between_kept_arg11]; exact W1_of_ne m ρ c main_arg11 (by decide)
theorem entry_arg12 (c : Dev nD) : V2 m ρ c main_arg12 = m ((c : Thread nD τ).loc main_arg12) := by
  show StableHlo.after hostOps1 (W1 m ρ c) (Proc.devRef .tc main_arg12) = _
  rw [between_kept_arg12]; exact W1_of_ne m ρ c main_arg12 (by decide)
theorem entry_arg13 (c : Dev nD) : V2 m ρ c main_arg13 = m ((c : Thread nD τ).loc main_arg13) := by
  show StableHlo.after hostOps1 (W1 m ρ c) (Proc.devRef .tc main_arg13) = _
  rw [between_kept_arg13]; exact W1_of_ne m ρ c main_arg13 (by decide)
theorem entry_arg14 (c : Dev nD) : V2 m ρ c main_arg14 = m ((c : Thread nD τ).loc main_arg14) := by
  show StableHlo.after hostOps1 (W1 m ρ c) (Proc.devRef .tc main_arg14) = _
  rw [between_kept_arg14]; exact W1_of_ne m ρ c main_arg14 (by decide)

/-! ## The result -/

/-- The function of the launch memory the result array ends at. -/
abbrev out (c : Dev nD) : Mat 262144 64 :=
  Cert.ReferenceIdeal.RefRun.whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- At the last boundary `main_v26` holds that function of the arguments. -/
theorem last_eq (c : Dev nD) : W3 m ρ c (Proc.devRef .tc main_v26) = out m c := by
  refine ((W3_arr m ρ c 7).trans (Second.array_eq (V2 m ρ) c)).trans ?_
  show mlp (V2 m ρ c main_v25) (V2 m ρ c main_arg9) (V2 m ρ c main_arg10) (V2 m ρ c main_arg11) (V2 m ρ c main_arg12)
    (V2 m ρ c main_arg13) (V2 m ρ c main_arg14) = _
  rw [entry_z, entry_arg9, entry_arg10, entry_arg11, entry_arg12, entry_arg13, entry_arg14]
  rfl

/-- Every weakly fair execution of the kernel's program terminates with the result array at `out` and the arguments
    unchanged. -/
theorem run : θ_run defs (onTc (τ := τ) (main (F := Ideal))) ⟨m, fun _ => 0, ρ⟩ (fun r => ∀ c : Dev nD,
      r.2.mem ((c.tc : Thread nD τ).loc main_v26) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (last_eq m ρ c), (h c).2⟩) (Named.run_named m ρ)

end Cert.KernelIdeal.Whole

end
-- ==== Proof.lean ====
/-
  Two perceptrons with a grouping stage between them: the kernel against the reference, over the extended reals.

  Both programs send the rows of x through a three-layer perceptron (products with a bias, a leaky rectifier after the
  first two layers), group the resulting rows by a number computed from two integer columns, set each row beside its
  group's mean, and send the widened rows through a second perceptron. The kernel runs each perceptron as a grid of 128
  blocks of 2048 rows, narrowing the factors of every product to a shorter float format on the way; the reference runs
  them on the arrays whole. At the ideal values a change of format is the identity, a product on the matrix unit into a
  zero block and the host's product are the same finite sum, and a row of a perceptron's result depends on that row of its
  input alone: so each region leaves the reference's array (Proof/KernelFirst.lean, Proof/KernelSecond.lean over
  Proof/LibPerceptron.lean). The grouping stage is the same operations in both programs and is carried as one function
  (Proof/RefOps.lean `regroup`), never opened. Both results are therefore `whole` of the fifteen arguments
  (Proof/KernelWhole.lean, Proof/RefValue.lean). No law used needs an entry to be finite, so the precondition is never
  opened. The idealization rewrote nothing: `preserves` is `True`.
-/
import proofs.«144227_j44976897524026_1_alg».proof.Defs
import proofs.«144227_j44976897524026_1_alg».proof.Proof.Gen.Kernel
import proofs.«144227_j44976897524026_1_alg».proof.Proof.Gen.Kernel.Frame
import proofs.«144227_j44976897524026_1_alg».proof.Proof.Gen.KernelIdeal
import proofs.«144227_j44976897524026_1_alg».proof.Proof.Gen.KernelIdeal.Frame
import proofs.«144227_j44976897524026_1_alg».proof.Proof.Gen.ReferenceIdeal
import proofs.«144227_j44976897524026_1_alg».proof.Proof.Gen.Pre_finite_inputs
import proofs.«144227_j44976897524026_1_alg».proof.Proof.KernelWhole
import proofs.«144227_j44976897524026_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs as its straight line of host operations, none of which writes an argument. -/
theorem frame_referenceIdeal : Cert.frame_ReferenceIdeal := fun m ρ _ =>
  (θ_run Cert.ReferenceIdeal.defs _ _).mono (fun r h c =>
    ⟨(h c Cert.ReferenceIdeal.main_arg0).trans (Cert.ReferenceIdeal.RefRun.kept_arg0 _),
     (h c Cert.ReferenceIdeal.main_arg1).trans (Cert.ReferenceIdeal.RefRun.kept_arg1 _),
     (h c Cert.ReferenceIdeal.main_arg2).trans (Cert.ReferenceIdeal.RefRun.kept_arg2 _),
     (h c Cert.ReferenceIdeal.main_arg3).trans (Cert.ReferenceIdeal.RefRun.kept_arg3 _),
     (h c Cert.ReferenceIdeal.main_arg4).trans (Cert.ReferenceIdeal.RefRun.kept_arg4 _),
     (h c Cert.ReferenceIdeal.main_arg5).trans (Cert.ReferenceIdeal.RefRun.kept_arg5 _),
     (h c Cert.ReferenceIdeal.main_arg6).trans (Cert.ReferenceIdeal.RefRun.kept_arg6 _),
     (h c Cert.ReferenceIdeal.main_arg7).trans (Cert.ReferenceIdeal.RefRun.kept_arg7 _),
     (h c Cert.ReferenceIdeal.main_arg8).trans (Cert.ReferenceIdeal.RefRun.kept_arg8 _),
     (h c Cert.ReferenceIdeal.main_arg9).trans (Cert.ReferenceIdeal.RefRun.kept_arg9 _),
     (h c Cert.ReferenceIdeal.main_arg10).trans (Cert.ReferenceIdeal.RefRun.kept_arg10 _),
     (h c Cert.ReferenceIdeal.main_arg11).trans (Cert.ReferenceIdeal.RefRun.kept_arg11 _),
     (h c Cert.ReferenceIdeal.main_arg12).trans (Cert.ReferenceIdeal.RefRun.kept_arg12 _),
     (h c Cert.ReferenceIdeal.main_arg13).trans (Cert.ReferenceIdeal.RefRun.kept_arg13 _),
     (h c Cert.ReferenceIdeal.main_arg14).trans (Cert.ReferenceIdeal.RefRun.kept_arg14 _)⟩)
    (Cert.ReferenceIdeal.RefRun.run_main (F := Ideal) m ρ)

/-- From memories agreeing on the arguments both programs end with the result array at `whole` of the arguments. -/
theorem algebraic : Cert.algebraic_KernelIdeal_ReferenceIdeal := by
  intro m ρ m' ρ' _ hagree
  refine ⟨fun c => Cert.KernelIdeal.Whole.out m c, Cert.KernelIdeal.Whole.run m ρ, ?_⟩
  refine (θ_run Cert.ReferenceIdeal.defs _ _).mono (fun r h c => ?_) (Cert.ReferenceIdeal.RefRun.run_main (F := Ideal) m' ρ')
  obtain ⟨e0, e1, e2, e3, e4, e5, e6, e7, e8, e9, e10, e11, e12, e13, e14⟩ := hagree c
  have key : Cert.ReferenceIdeal.RefRun.whole (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))
      = Cert.KernelIdeal.Whole.out m c := by
    rw [e0, e1, e2, e3, e4, e5, e6, e7, e8, e9, e10, e11, e12, e13, e14]
  exact ⟨((h c Cert.ReferenceIdeal.main_v52).trans (Cert.ReferenceIdeal.RefRun.out_eq _)).trans key,
    (h c Cert.ReferenceIdeal.main_arg0).trans (Cert.ReferenceIdeal.RefRun.kept_arg0 _),
    (h c Cert.ReferenceIdeal.main_arg1).trans (Cert.ReferenceIdeal.RefRun.kept_arg1 _),
    (h c Cert.ReferenceIdeal.main_arg2).trans (Cert.ReferenceIdeal.RefRun.kept_arg2 _),
    (h c Cert.ReferenceIdeal.main_arg3).trans (Cert.ReferenceIdeal.RefRun.kept_arg3 _),
    (h c Cert.ReferenceIdeal.main_arg4).trans (Cert.ReferenceIdeal.RefRun.kept_arg4 _),
    (h c Cert.ReferenceIdeal.main_arg5).trans (Cert.ReferenceIdeal.RefRun.kept_arg5 _),
    (h c Cert.ReferenceIdeal.main_arg6).trans (Cert.ReferenceIdeal.RefRun.kept_arg6 _),
    (h c Cert.ReferenceIdeal.main_arg7).trans (Cert.ReferenceIdeal.RefRun.kept_arg7 _),
    (h c Cert.ReferenceIdeal.main_arg8).trans (Cert.ReferenceIdeal.RefRun.kept_arg8 _),
    (h c Cert.ReferenceIdeal.main_arg9).trans (Cert.ReferenceIdeal.RefRun.kept_arg9 _),
    (h c Cert.ReferenceIdeal.main_arg10).trans (Cert.ReferenceIdeal.RefRun.kept_arg10 _),
    (h c Cert.ReferenceIdeal.main_arg11).trans (Cert.ReferenceIdeal.RefRun.kept_arg11 _),
    (h c Cert.ReferenceIdeal.main_arg12).trans (Cert.ReferenceIdeal.RefRun.kept_arg12 _),
    (h c Cert.ReferenceIdeal.main_arg13).trans (Cert.ReferenceIdeal.RefRun.kept_arg13 _),
    (h c Cert.ReferenceIdeal.main_arg14).trans (Cert.ReferenceIdeal.RefRun.kept_arg14 _)⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
